-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x128 : Shape := ⟨3, ![32, 512, 128]⟩
abbrev S32x512x512 : Shape := ⟨3, ![32, 512, 512]⟩
abbrev S32x512x1 : Shape := ⟨3, ![32, 512, 1]⟩
abbrev S128x128 : Shape := ⟨2, ![128, 128]⟩
abbrev S128 : Shape := ⟨1, ![128]⟩
abbrev S_ : Shape := ⟨0, ![]⟩

class Facts : Prop where
  bcast_S_S32x512x128 : S_.BroadcastsInDim S32x512x128 (![] : Fin 0 → Fin S32x512x128.rank)
  reducesTo_S32x512x128_S_d0_1_2 : S32x512x128.ReducesTo [0, 1, 2] S_
  h_S_ : 0 < S_.numel
  bcast_S_S32x512x512 : S_.BroadcastsInDim S32x512x512 (![] : Fin 0 → Fin S32x512x512.rank)
  reducesTo_S32x512x512_S_d0_1_2 : S32x512x512.ReducesTo [0, 1, 2] S_
  bcast_S_S32x512x1 : S_.BroadcastsInDim S32x512x1 (![] : Fin 0 → Fin S32x512x1.rank)
  reducesTo_S32x512x1_S_d0_1_2 : S32x512x1.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32x512x128 .f32) (main_arg1 : FVec F S32x512x512 .f32) (main_arg2 : FVec F S32x512x1 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S32x512x128 .f32 := Host.absf main_arg0
  let main_cst : FVec F S_ .f32 := constant S_ .f32 0x7F800000#32
  let main_v1 : FVec F S32x512x128 .f32 := broadcastInDim S32x512x128 ![] bcast_S_S32x512x128 main_cst
  let main_v2 : IVec S32x512x128 1 := cmpf .olt main_v0 main_v1
  let main_c : IVec S_ 1 := constantI S_ 1 1#1
  let main_v3 : IVec S_ 1 := (fun x v => Host.reduce IntOp.andi x v reducesTo_S32x512x128_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S32x512x1 .f32 := Host.absf main_arg2
  let main_cst_2 : FVec F S_ .f32 := constant S_ .f32 0x7F800000#32
  let main_v10 : FVec F S32x512x1 .f32 := broadcastInDim S32x512x1 ![] bcast_S_S32x512x1 main_cst_2
  let main_v11 : IVec S32x512x1 1 := cmpf .olt main_v9 main_v10
  let main_c_3 : IVec S_ 1 := constantI S_ 1 1#1
  let main_v12 : IVec S_ 1 := (fun x v => Host.reduce IntOp.andi x v reducesTo_S32x512x1_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32x512x128 : Shape := ⟨3, ![32, 512, 128]⟩
abbrev S32x512x512 : Shape := ⟨3, ![32, 512, 512]⟩
abbrev S32x512x1 : Shape := ⟨3, ![32, 512, 1]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S128x256 : Shape := ⟨2, ![128, 256]⟩
abbrev S256 : Shape := ⟨1, ![256]⟩
abbrev S1x256 : Shape := ⟨2, ![1, 256]⟩
abbrev S1x128 : Shape := ⟨2, ![1, 128]⟩
abbrev S2x512x128 : Shape := ⟨3, ![2, 512, 128]⟩
abbrev S2x512x512 : Shape := ⟨3, ![2, 512, 512]⟩
abbrev S2x512x1 : Shape := ⟨3, ![2, 512, 1]⟩
abbrev S1x512x128 : Shape := ⟨3, ![1, 512, 128]⟩
abbrev S512x128 : Shape := ⟨2, ![512, 128]⟩
abbrev S1x512x1 : Shape := ⟨3, ![1, 512, 1]⟩
abbrev S512x1 : Shape := ⟨2, ![512, 1]⟩
abbrev S1x512x512 : Shape := ⟨3, ![1, 512, 512]⟩
abbrev S512x512 : Shape := ⟨2, ![512, 512]⟩
abbrev S512x384 : Shape := ⟨2, ![512, 384]⟩
abbrev S512x256 : Shape := ⟨2, ![512, 256]⟩

abbrev nBuf : Space → Nat
  | .hbm => 26
  | .vmem => 16
  | .smem => 0
  | _ => 0

abbrev bufTy : (tb : Table) → Fin (tcTables nBuf tb) → BufTy
  | .hbm, ⟨0, _⟩ => ⟨S32x512x128, .f32⟩
  | .hbm, ⟨1, _⟩ => ⟨S32x512x512, .f32⟩
  | .hbm, ⟨2, _⟩ => ⟨S32x512x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x384, .f32⟩
  | .hbm, ⟨18, _⟩ => ⟨S384, .f32⟩
  | .hbm, ⟨19, _⟩ => ⟨S1x384, .f32⟩
  | .hbm, ⟨20, _⟩ => ⟨S128x256, .f32⟩
  | .hbm, ⟨21, _⟩ => ⟨S256, .f32⟩
  | .hbm, ⟨22, _⟩ => ⟨S1x256, .f32⟩
  | .hbm, ⟨23, _⟩ => ⟨S1x128, .f32⟩
  | .hbm, ⟨24, _⟩ => ⟨S1x128, .f32⟩
  | .hbm, ⟨25, _⟩ => ⟨S32x512x128, .f32⟩
  | .local _ .vmem, ⟨0, _⟩ => ⟨S2x512x128, .f32⟩
  | .local _ .vmem, ⟨1, _⟩ => ⟨S2x512x128, .f32⟩
  | .local _ .vmem, ⟨2, _⟩ => ⟨S2x512x512, .f32⟩
  | .local _ .vmem, ⟨3, _⟩ => ⟨S2x512x512, .f32⟩
  | .local _ .vmem, ⟨4, _⟩ => ⟨S2x512x1, .f32⟩
  | .local _ .vmem, ⟨5, _⟩ => ⟨S2x512x1, .f32⟩
  | .local _ .vmem, ⟨6, _⟩ => ⟨S128x128, .f32⟩
  | .local _ .vmem, ⟨7, _⟩ => ⟨S1x128, .f32⟩
  | .local _ .vmem, ⟨8, _⟩ => ⟨S128x384, .f32⟩
  | .local _ .vmem, ⟨9, _⟩ => ⟨S1x384, .f32⟩
  | .local _ .vmem, ⟨10, _⟩ => ⟨S128x256, .f32⟩
  | .local _ .vmem, ⟨11, _⟩ => ⟨S1x256, .f32⟩
  | .local _ .vmem, ⟨12, _⟩ => ⟨S128x128, .f32⟩
  | .local _ .vmem, ⟨13, _⟩ => ⟨S1x128, .f32⟩
  | .local _ .vmem, ⟨14, _⟩ => ⟨S2x512x128, .f32⟩
  | .local _ .vmem, ⟨15, _⟩ => ⟨S2x512x128, .f32⟩
  | _, _ => ⟨S32x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  shapeCasts_S128_S1x128 : S128.ShapeCasts S1x128
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  inb_S128x128_S128x128_0_0 : ∀ a, (![0, 0] : Fin 2 → Nat) a + S128x128.size a ≤ S128x128.size a
  h_S128x128 : 0 < S128x128.numel
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  broadcasts_S512x1_S512x128 : S512x1.Broadcasts S512x128
  inb_S2x512x128_S1x512x128_1_0_0 : ∀ a, (![1, 0, 0] : Fin 3 → Nat) a + S1x512x128.size a ≤ S2x512x128.size a
  inb_S2x512x1_S1x512x1_1_0_0 : ∀ a, (![1, 0, 0] : Fin 3 → Nat) a + S1x512x1.size a ≤ S2x512x1.size a
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  slices_S512x384_o0_0_S512x128 : S512x384.Slices ![0, 0] S512x128
  slices_S512x256_o0_0_S512x128 : S512x256.Slices ![0, 0] S512x128
  slices_S512x384_o0_128_S512x128 : S512x384.Slices ![0, 128] S512x128
  slices_S512x256_o0_128_S512x128 : S512x256.Slices ![0, 128] S512x128
  slices_S512x384_o0_256_S512x128 : S512x384.Slices ![0, 256] S512x128
  inb_S2x512x512_S1x512x512_1_0_0 : ∀ a, (![1, 0, 0] : Fin 3 → Nat) a + S1x512x512.size a ≤ S2x512x512.size a
  shapeCasts_S512x128_S1x512x128 : S512x128.ShapeCasts S1x512x128
  dot_S512x128_S128x128_S512x128_1_0_0_1_n_n_wf : DotDims.WF S512x128 S128x128 S512x128 [1] [0] [0] [1] [] []
  dot_S512x512_S512x128_S512x128_1_0_0_1_n_n_wf : DotDims.WF S512x512 S512x128 S512x128 [1] [0] [0] [1] [] []
  dot_S512x128_S128x384_S512x384_1_0_0_1_n_n_wf : DotDims.WF S512x128 S128x384 S512x384 [1] [0] [0] [1] [] []
  dot_S512x128_S128x256_S512x256_1_0_0_1_n_n_wf : DotDims.WF S512x128 S128x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x128.size a ≤ S32x512x128.size a
  hwx0_0 : ∀ i : grid0.Coords, EltTy.bits .f32 = 32 ∨ (Rect.block (s := S32x512x128) S2x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S32x512x512.size a
  hwx0_1 : ∀ i : grid0.Coords, EltTy.bits .f32 = 32 ∨ (Rect.block (s := S32x512x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x1.size a ≤ S32x512x1.size a
  hwx0_2 : ∀ i : grid0.Coords, EltTy.bits .f32 = 32 ∨ (Rect.block (s := S32x512x1) S2x512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2x512x128.size a ≤ S32x512x128.size a
  hwx0_11 : ∀ i : grid0.Coords, EltTy.bits .f32 = 32 ∨ (Rect.block (s := S32x512x128) S2x512x128.size (cc0_transform_11 i) (hinb0_11 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf

abbrev win0_0 : Pipeline.Window sig grid0 :=
  Pipeline.Window.ofSpec (Memref.whole main_arg0) S2x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S2x512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32x512x128 : Shape := ⟨3, ![32, 512, 128]⟩
abbrev S32x512x512 : Shape := ⟨3, ![32, 512, 512]⟩
abbrev S32x512x1 : Shape := ⟨3, ![32, 512, 1]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 138
  | .vmem => 0
  | .smem => 0
  | _ => 0

abbrev hbmTy0_0 (i : Nat) : BufTy := match i % 128 with
  | 0 => ⟨S32x512x128, .f32⟩
  | 1 => ⟨S32x512x512, .f32⟩
  | 2 => ⟨S32x512x1, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S32x512x128, .f32⟩
  | 18 => ⟨S1x1x128, .f32⟩
  | 19 => ⟨S32x512x128, .f32⟩
  | 20 => ⟨S32x512x128, .f32⟩
  | 21 => ⟨S_, .f32⟩
  | 22 => ⟨S32x512x128, .f32⟩
  | 23 => ⟨S32x512x128, .f32⟩
  | 24 => ⟨S32x512x128, .f32⟩
  | 25 => ⟨S32x512x128, .f32⟩
  | 26 => ⟨S32x512x128, .f32⟩
  | 27 => ⟨S32x512x128, .f32⟩
  | 28 => ⟨S1x1x128, .f32⟩
  | 29 => ⟨S32x512x128, .f32⟩
  | 30 => ⟨S32x512x128, .f32⟩
  | 31 => ⟨S32x512x128, .f32⟩
  | 32 => ⟨S1x1x128, .f32⟩
  | 33 => ⟨S32x512x128, .f32⟩
  | 34 => ⟨S32x512x128, .f32⟩
  | 35 => ⟨S32x512x128, .f32⟩
  | 36 => ⟨S32x512x128, .f32⟩
  | 37 => ⟨S32x512x128, .f32⟩
  | 38 => ⟨S_, .f32⟩
  | 39 => ⟨S32x512x128, .f32⟩
  | 40 => ⟨S32x512x128, .f32⟩
  | 41 => ⟨S_, .f32⟩
  | 42 => ⟨S32x512x128, .f32⟩
  | 43 => ⟨S32x512x128, .f32⟩
  | 44 => ⟨S32x512x128, .f32⟩
  | 45 => ⟨S1x1x128, .f32⟩
  | 46 => ⟨S32x512x128, .f32⟩
  | 47 => ⟨S32x512x128, .f32⟩
  | 48 => ⟨S32x512x128, .f32⟩
  | 49 => ⟨S1x1x128, .f32⟩
  | 50 => ⟨S32x512x128, .f32⟩
  | 51 => ⟨S32x512x128, .f32⟩
  | 52 => ⟨S32x512x128, .f32⟩
  | 53 => ⟨S32x512x128, .f32⟩
  | 54 => ⟨S32x512x128, .f32⟩
  | 55 => ⟨S_, .f32⟩
  | 56 => ⟨S32x512x128, .f32⟩
  | 57 => ⟨S32x512x128, .f32⟩
  | 58 => ⟨S_, .f32⟩
  | 59 => ⟨S32x512x128, .f32⟩
  | 60 => ⟨S32x512x128, .f32⟩
  | 61 => ⟨S32x512x128, .f32⟩
  | 62 => ⟨S1x1x128, .f32⟩
  | 63 => ⟨S32x512x128, .f32⟩
  | 64 => ⟨S32x512x128, .f32⟩
  | 65 => ⟨S32x512x128, .f32⟩
  | 66 => ⟨S32x512x128, .f32⟩
  | 67 => ⟨S1x1x128, .f32⟩
  | 68 => ⟨S32x512x128, .f32⟩
  | 69 => ⟨S32x512x128, .f32⟩
  | 70 => ⟨S32x512x128, .f32⟩
  | 71 => ⟨S32x512x128, .f32⟩
  | 72 => ⟨S32x512x128, .f32⟩
  | 73 => ⟨S_, .f32⟩
  | 74 => ⟨S32x512x128, .f32⟩
  | 75 => ⟨S32x512x128, .f32⟩
  | 76 => ⟨S32x512x128, .f32⟩
  | 77 => ⟨S_, .f32⟩
  | 78 => ⟨S32x512x128, .f32⟩
  | 79 => ⟨S32x512x128, .f32⟩
  | 80 => ⟨S32x512x128, .f32⟩
  | 81 => ⟨S32x512x128, .f32⟩
  | 82 => ⟨S32x512x128, .f32⟩
  | 83 => ⟨S32x512x128, .f32⟩
  | 84 => ⟨S1x1x128, .f32⟩
  | 85 => ⟨S32x512x128, .f32⟩
  | 86 => ⟨S32x512x128, .f32⟩
  | 87 => ⟨S32x512x128, .f32⟩
  | 88 => ⟨S1x1x128, .f32⟩
  | 89 => ⟨S32x512x128, .f32⟩
  | 90 => ⟨S32x512x128, .f32⟩
  | 91 => ⟨S32x512x128, .f32⟩
  | 92 => ⟨S32x512x128, .f32⟩
  | 93 => ⟨S32x512x128, .f32⟩
  | 94 => ⟨S_, .f32⟩
  | 95 => ⟨S32x512x128, .f32⟩
  | 96 => ⟨S32x512x128, .f32⟩
  | 97 => ⟨S_, .f32⟩
  | 98 => ⟨S32x512x128, .f32⟩
  | 99 => ⟨S32x512x128, .f32⟩
  | 100 => ⟨S32x512x128, .f32⟩
  | 101 => ⟨S1x1x128, .f32⟩
  | 102 => ⟨S32x512x128, .f32⟩
  | 103 => ⟨S32x512x128, .f32⟩
  | 104 => ⟨S32x512x128, .f32⟩
  | 105 => ⟨S1x1x128, .f32⟩
  | 106 => ⟨S32x512x128, .f32⟩
  | 107 => ⟨S32x512x128, .f32⟩
  | 108 => ⟨S32x512x128, .f32⟩
  | 109 => ⟨S32x512x128, .f32⟩
  | 110 => ⟨S32x512x128, .f32⟩
  | 111 => ⟨S_, .f32⟩
  | 112 => ⟨S32x512x128, .f32⟩
  | 113 => ⟨S32x512x128, .f32⟩
  | 114 => ⟨S_, .f32⟩
  | 115 => ⟨S32x512x128, .f32⟩
  | 116 => ⟨S32x512x128, .f32⟩
  | 117 => ⟨S32x512x128, .f32⟩
  | 118 => ⟨S1x1x128, .f32⟩
  | 119 => ⟨S32x512x128, .f32⟩
  | 120 => ⟨S32x512x128, .f32⟩
  | 121 => ⟨S32x512x128, .f32⟩
  | 122 => ⟨S32x512x128, .f32⟩
  | 123 => ⟨S1x1x128, .f32⟩
  | 124 => ⟨S32x512x128, .f32⟩
  | 125 => ⟨S32x512x128, .f32⟩
  | 126 => ⟨S32x512x128, .f32⟩
  | 127 => ⟨S32x512x128, .f32⟩
  | _ => ⟨S32x512x128, .f32⟩

abbrev hbmTy0_1 (i : Nat) : BufTy := match i % 128 with
  | 0 => ⟨S32x512x128, .f32⟩
  | 1 => ⟨S_, .f32⟩
  | 2 => ⟨S32x512x128, .f32⟩
  | 3 => ⟨S32x512x128, .f32⟩
  | 4 => ⟨S32x512x128, .f32⟩
  | 5 => ⟨S_, .f32⟩
  | 6 => ⟨S32x512x128, .f32⟩
  | 7 => ⟨S32x512x128, .f32⟩
  | 8 => ⟨S32x512x128, .f32⟩
  | 9 => ⟨S32x512x128, .f32⟩
  | _ => ⟨S32x512x128, .f32⟩

abbrev hbmTy (i : Nat) : BufTy := match i / 128 with
  | 0 => hbmTy0_0 i
  | 1 => hbmTy0_1 i
  | _ => ⟨S32x512x128, .f32⟩

abbrev bufTy : (tb : Table) → Fin (tcTables nBuf tb) → BufTy
  | .hbm, ⟨i, _⟩ => hbmTy i
  | _, _ => ⟨S32x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_1 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_cst_3 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_6 : Ref sig .tc := ⟨.hbm, 111, rfl⟩
abbrev main_v83 : Ref sig .tc := ⟨.hbm, 112, rfl⟩
abbrev main_v84 : Ref sig .tc := ⟨.hbm, 113, rfl⟩
abbrev main_cst_7 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call2_cst : Ref sig .tc := ⟨.hbm, 129, rfl⟩
abbrev main_call2_v0 : Ref sig .tc := ⟨.hbm, 130, rfl⟩
abbrev main_v99 : Ref sig .tc := ⟨.hbm, 131, rfl⟩
abbrev main_v100 : Ref sig .tc := ⟨.hbm, 132, rfl⟩
abbrev main_cst_8 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x512x128_0_1_2 : S1x1x128.BroadcastsInDim S32x512x128 (![0, 1, 2] : Fin 3 → Fin S32x512x128.rank)
  bcast_S_S32x512x128 : S_.BroadcastsInDim S32x512x128 (![] : Fin 0 → Fin S32x512x128.rank)
  bcast_S32x512x1_S32x512x128_0_1_2 : S32x512x1.BroadcastsInDim S32x512x128 (![0, 1, 2] : Fin 3 → Fin S32x512x128.rank)
  dot_S32x512x128_S128x128_S32x512x128_2_0_01_1_n_n_wf : DotDims.WF S32x512x128 S128x128 S32x512x128 [2] [0] [0, 1] [1] [] []
  dot_S32x512x512_S32x512x128_S32x512x128_2_1_1_2_0_0_wf : DotDims.WF S32x512x512 S32x512x128 S32x512x128 [2] [1] [1] [2] [0] [0]

variable [Facts₀]

def dot_S32x512x128_S128x128_S32x512x128_2_0_01_1_n_n : DotDims S32x512x128 S128x128 S32x512x128 where
  lhsContracting := [2]
  rhsContracting := [0]
  lhsNonContracting := [0, 1]
  rhsNonContracting := [1]
  lhsBatch := []
  rhsBatch := []
  wf := dot_S32x512x128_S128x128_S32x512x128_2_0_01_1_n_n_wf
def dot_S32x512x512_S32x512x128_S32x512x128_2_1_1_2_0_0 : DotDims S32x512x512 S32x512x128 S32x512x128 where
  lhsContracting := [2]
  rhsContracting := [1]
  lhsNonContracting := [1]
  rhsNonContracting := [2]
  lhsBatch := [0]
  rhsBatch := [0]
  wf := dot_S32x512x512_S32x512x128_S32x512x128_2_1_1_2_0_0_wf

class Facts : Prop extends Facts₀ where

variable [Facts]
-- ==== Proof.KIFrameKit.lean ====
/-
  The frame kit of the program: @main up to its one region (eight host operations, none of which writes an
  argument array), the contents of the core's buffers when the region is entered, each window's block at a grid
  point, each input window's staging buffer at its block at every point, and the frame claim's post from any
  proof data's run to the pipeline library's frame post.
-/
import proofs.«126110_g44787918963399_cont_sun_c4_384_8_alg».proof.Proof.Gen.KernelIdeal.Launch
import proofs.«126110_g44787918963399_cont_sun_c4_384_8_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch contents after the host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: unfetched, the block
    index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: unfetched, the block
    index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: unfetched, the block
    index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: unfetched, the block
    index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place: unfetched, the block
    index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place: unfetched, the block
    index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is the region-entry contents and whose body leaves the block in place: unfetched, the block
    index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is the region-entry contents and whose body leaves the block in place: unfetched, the block
    index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is the region-entry contents and whose body leaves the block in place: unfetched, the block
    index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is the region-entry contents and whose body leaves the block in place: unfetched, the block
    index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's frame post,
    read at the argument arrays — an argument a window stages by the window's array at the end, every other by the
    post's clause for the buffers no window stages, each then as launched since no host operation writes it — is
    the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 9).trans (((dats 0 c).arrAt_in 9 rfl _).trans ((hA c 9).trans (V_main_arg15 m c))),
      ((h c).2 main_arg16 (Pipeline.mem_restRefs_of main_arg16 (by decide) (by decide))).trans (V_main_arg16 m c)⟩) h

end Cert.KernelIdeal.Fr

end
-- ==== Proof.KIOut.lean ====
/-
  What the kernel body leaves in the output window's staging buffer, as a function of the eleven input
  windows' staging buffers: the buffer is two graphs' worth of rows; graph g's half is stored whole, and its
  value is the body's arithmetic on graph g's halves of the feature, support and mask blocks and on the
  (whole) weight blocks. The arithmetic is the body's own, named stage by stage.
-/
import proofs.«126110_g44787918963399_cont_sun_c4_384_8_alg».proof.Proof.Gen.KernelIdeal.Skeleton
import Idealize.ShloMosaic.Lib.Pipeline.FrameBody

noncomputable section

namespace Cert.KernelIdeal.Fr

open Idealize.ShloMosaic Idealize.ShloMosaic.TcCoe Idealize.SL.Sem Cert.KernelIdeal Cert.KernelIdeal.Gen

variable {F : FTy → Type} [FloatOps F]

/-! ## The rectangles the body reads and writes -/

/-- Graph 0's half of a two-graph feature (or output) block. -/
abbrev rG0 : Rect S2x512x128 := Rect.unit (s := S2x512x128) ![0, 0, 0] S1x512x128.size inb_S2x512x128_S1x512x128_0_0_0
/-- Graph 1's half. -/
abbrev rG1 : Rect S2x512x128 := Rect.unit (s := S2x512x128) ![1, 0, 0] S1x512x128.size inb_S2x512x128_S1x512x128_1_0_0
/-- Graph 0's half of a two-graph support block. -/
abbrev rS0 : Rect S2x512x512 := Rect.unit (s := S2x512x512) ![0, 0, 0] S1x512x512.size inb_S2x512x512_S1x512x512_0_0_0
/-- Graph 1's half. -/
abbrev rS1 : Rect S2x512x512 := Rect.unit (s := S2x512x512) ![1, 0, 0] S1x512x512.size inb_S2x512x512_S1x512x512_1_0_0
/-- Graph 0's half of a two-graph mask block. -/
abbrev rM0 : Rect S2x512x1 := Rect.unit (s := S2x512x1) ![0, 0, 0] S1x512x1.size inb_S2x512x1_S1x512x1_0_0_0
/-- Graph 1's half. -/
abbrev rM1 : Rect S2x512x1 := Rect.unit (s := S2x512x1) ![1, 0, 0] S1x512x1.size inb_S2x512x1_S1x512x1_1_0_0
/-- A whole square weight block. -/
abbrev rW : Rect S128x128 := Rect.unit (s := S128x128) ![0, 0] S128x128.size inb_S128x128_S128x128_0_0
/-- A whole bias row. -/
abbrev rB : Rect S1x128 := Rect.unit (s := S1x128) ![0, 0] S1x128.size inb_S1x128_S1x128_0_0
/-- The three aggregated-state weights side by side, whole. -/
abbrev rWa : Rect S128x384 := Rect.unit (s := S128x384) ![0, 0] S128x384.size inb_S128x384_S128x384_0_0
/-- Their biases side by side. -/
abbrev rBa : Rect S1x384 := Rect.unit (s := S1x384) ![0, 0] S1x384.size inb_S1x384_S1x384_0_0
/-- The two state weights side by side, whole. -/
abbrev rWo : Rect S128x256 := Rect.unit (s := S128x256) ![0, 0] S128x256.size inb_S128x256_S128x256_0_0
/-- Their biases side by side. -/
abbrev rBo : Rect S1x256 := Rect.unit (s := S1x256) ![0, 0] S1x256.size inb_S1x256_S1x256_0_0

/-! ## The output buffer after the body -/

/-- The output window's staging buffer after the body, from the input windows' staging buffers
    `x0` (features), `x1` (support), `x2` (mask), `x3`, `x4` (encoder weight and bias), `x5`, `x6`
    (aggregated-state weights and biases), `x7`, `x8` (state weights and biases), `x9`, `x10` (the
    candidate's state weight and bias): its two stores as pieces, the later first. -/
def out0_11 (x0 : Vec F S2x512x128 .f32) (x1 : Vec F S2x512x512 .f32) (x2 : Vec F S2x512x1 .f32)
    (x3 : Vec F S128x128 .f32) (x4 : Vec F S1x128 .f32) (x5 : Vec F S128x384 .f32) (x6 : Vec F S1x384 .f32)
    (x7 : Vec F S128x256 .f32) (x8 : Vec F S1x256 .f32) (x9 : Vec F S128x128 .f32) (x10 : Vec F S1x128 .f32) :
    Vec F S2x512x128 .f32 :=
  have xg0 : Vec F S1x512x128 .f32 := View.ld x0 rG0
  have xg1 : Vec F S1x512x128 .f32 := View.ld x0 rG1
  have sg0 : Vec F S1x512x512 .f32 := View.ld x1 rS0
  have sg1 : Vec F S1x512x512 .f32 := View.ld x1 rS1
  have mg0 : Vec F S1x512x1 .f32 := View.ld x2 rM0
  have mg1 : Vec F S1x512x1 .f32 := View.ld x2 rM1
  have we : Vec F S128x128 .f32 := View.ld x3 rW
  have be : Vec F S1x128 .f32 := View.ld x4 rB
  have wa : Vec F S128x384 .f32 := View.ld x5 rWa
  have ba : Vec F S1x384 .f32 := View.ld x6 rBa
  have wo : Vec F S128x256 .f32 := View.ld x7 rWo
  have bo : Vec F S1x256 .f32 := View.ld x8 rBo
  have wh : Vec F S128x128 .f32 := View.ld x9 rW
  have bh : Vec F S1x128 .f32 := View.ld x10 rB
  -- the encoder on each graph, and graph 0's first aggregation
  have v13 : FVec F S512x128 .f32 := k0_pay3 xg0 we mg0 be
  have v27 : FVec F S512x128 .f32 := k0_pay4 xg1 we mg1 be
  have v30 : FVec F S512x128 .f32 := k0_pay5 xg0 we mg0 be sg0
  -- graph 0, first step
  have v70 : FVec F S512x128 .f32 := k0_pay6 v13 v30 wa ba wo bo wh mg0 bh
  -- graph 1, first step
  have v91 : FVec F S512x128 .f32 := k0_pay9 v27 sg1 wa ba wo bo
  have v108 : FVec F S512x128 .f32 := k0_pay10 v27 sg1 wa ba wo bo wh mg1 bh
  have cst_66 : F .f32 := Scalar.ofBits .f32 0x00000000#32
  have v113 : FVec F S512x128 .f32 := k0_pay11 v27 v91 v108 cst_66
  -- graph 0, second step
  have v134 : FVec F S512x128 .f32 := k0_pay14 v70 sg0 wa ba wo bo
  have v143 : FVec F S512x1 .f32 := k0_pay15 mg0
  have v145 : FVec F S512x128 .f32 := k0_pay16 v70 sg0 wa ba wo bo wh
  have v156 : FVec F S512x128 .f32 := k0_pay17 v70 v134 v143 v145 bh
  -- graph 1, second step
  have v166 : FVec F S512x384 .f32 := k0_pay18 v113 sg1 wa ba
  have v177 : FVec F S512x128 .f32 := k0_pay20 v113 sg1 wa ba wo bo
  have v184 : FVec F S512x128 .f32 := k0_pay21 v113 sg1 wa ba wo bo wh
  View.canon [⟨rG1, k0_pay2 v113 v166 v177 v184 mg1 bh⟩, ⟨rG0, k0_pay1 v156⟩]

end Cert.KernelIdeal.Fr

end
-- ==== Proof.KIFrame.lean ====
/-
  The frame certificate of the program on the kit: the output window's buffer after the body as the two graph
  halves stored over the payload chain, the body's triple, the pipeline's proof data, the body obligation at a
  generic grid point, the run of @main and the frame claim at any float instance.
-/
import proofs.«126110_g44787918963399_cont_sun_c4_384_8_alg».proof.Proof.KIFrameKit
import proofs.«126110_g44787918963399_cont_sun_c4_384_8_alg».proof.Proof.KIOut
import proofs.«126110_g44787918963399_cont_sun_c4_384_8_alg».proof.Proof.Gen.KernelIdeal.Skeleton

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output's two stores cover its buffer -/

/-- The two graph halves tile the two-graph block, so the stores cover it. -/
theorem cover0_11 (p1 p0 : Vec F S1x512x128 .f32) (y : S2x512x128.Idx) :
    ∃ pc ∈ ([⟨rG1, p1⟩, ⟨rG0, p0⟩] : List (View.Piece (Elt F) S2x512x128 .f32)), y ∈ pc.1.set :=
  View.cover_of_tiled [⟨rG1, p1⟩, ⟨rG0, p0⟩] S1x512x128.size (by rfl) y

/-! ## The body's triple -/

set_option maxHeartbeats 4000000 in
/-- The kernel body on whole staging memrefs, the inputs' at read contents `xW` and the output's at anything, runs
    to the continuation holding the inputs' as they were and the output's at `out0_11` of the inputs'. -/
theorem sound_kernel (c : Dev nD) (E : Set ℕ) (i : grid0.Coords) (arg1 : Memref sig .tc .vmem S2x512x128 .f32) (harg1 : arg1.IsWhole) (arg2 : Memref sig .tc .vmem S2x512x512 .f32) (harg2 : arg2.IsWhole) (arg3 : Memref sig .tc .vmem S2x512x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S2x512x128 .f32) (harg12 : arg12.IsWhole)
    (x0 : Vec F S2x512x128 .f32) (x1 : Vec F S2x512x512 .f32) (x2 : Vec F S2x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__graph_gru_kernel i arg1 harg1 arg2 harg2 arg3 harg3 arg4 harg4 arg5 harg5 arg6 harg6 arg7 harg7 arg8 harg8 arg9 harg9 arg10 harg10 arg11 harg11 arg12 harg12) K := by
  simp only [cc0__graph_gru_kernel_eq_skeleton]; unfold cc0__graph_gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  unfold out0_11
  exact View.read_writes_eq_canon _ _ _ (cover0_11 _ _)

/-! ## The pipeline's proof data -/

/-- The proof data of the one pipeline on core `c`: the arrays as the region finds them; after the body at point
    `t` each input's buffer at its block and the output's at `out0_11` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Fr

end
-- ==== Proof.KFrameKit.lean ====
/-
  The frame kit of the program: @main up to its one region (eight host operations, none of which writes an
  argument array), the contents of the core's buffers when the region is entered, each window's block at a grid
  point, each input window's staging buffer at its block at every point, and the frame claim's post from any
  proof data's run to the pipeline library's frame post.
-/
import proofs.«126110_g44787918963399_cont_sun_c4_384_8_alg».proof.Proof.Gen.Kernel.Launch
import proofs.«126110_g44787918963399_cont_sun_c4_384_8_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch contents after the host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: unfetched, the block
    index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: unfetched, the block
    index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: unfetched, the block
    index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: unfetched, the block
    index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: unfetched, the block
    index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place: unfetched, the block
    index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place: unfetched, the block
    index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is the region-entry contents and whose body leaves the block in place: unfetched, the block
    index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is the region-entry contents and whose body leaves the block in place: unfetched, the block
    index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is the region-entry contents and whose body leaves the block in place: unfetched, the block
    index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is the region-entry contents and whose body leaves the block in place: unfetched, the block
    index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline library's frame post,
    read at the argument arrays — an argument a window stages by the window's array at the end, every other by the
    post's clause for the buffers no window stages, each then as launched since no host operation writes it — is
    the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 9).trans (((dats 0 c).arrAt_in 9 rfl _).trans ((hA c 9).trans (V_main_arg15 m c))),
      ((h c).2 main_arg16 (Pipeline.mem_restRefs_of main_arg16 (by decide) (by decide))).trans (V_main_arg16 m c)⟩) h

end Cert.Kernel.Fr

end
-- ==== Proof.KOut.lean ====
/-
  What the kernel body leaves in the output window's staging buffer, as a function of the eleven input
  windows' staging buffers: the buffer is two graphs' worth of rows; graph g's half is stored whole, and its
  value is the body's arithmetic on graph g's halves of the feature, support and mask blocks and on the
  (whole) weight blocks. The arithmetic is the body's own, named stage by stage.
-/
import proofs.«126110_g44787918963399_cont_sun_c4_384_8_alg».proof.Proof.Gen.Kernel.Skeleton
import Idealize.ShloMosaic.Lib.Pipeline.FrameBody

noncomputable section

namespace Cert.Kernel.Fr

open Idealize.ShloMosaic Idealize.ShloMosaic.TcCoe Idealize.SL.Sem Cert.Kernel Cert.Kernel.Gen

variable {F : FTy → Type} [FloatOps F]

/-! ## The rectangles the body reads and writes -/

/-- Graph 0's half of a two-graph feature (or output) block. -/
abbrev rG0 : Rect S2x512x128 := Rect.unit (s := S2x512x128) ![0, 0, 0] S1x512x128.size inb_S2x512x128_S1x512x128_0_0_0
/-- Graph 1's half. -/
abbrev rG1 : Rect S2x512x128 := Rect.unit (s := S2x512x128) ![1, 0, 0] S1x512x128.size inb_S2x512x128_S1x512x128_1_0_0
/-- Graph 0's half of a two-graph support block. -/
abbrev rS0 : Rect S2x512x512 := Rect.unit (s := S2x512x512) ![0, 0, 0] S1x512x512.size inb_S2x512x512_S1x512x512_0_0_0
/-- Graph 1's half. -/
abbrev rS1 : Rect S2x512x512 := Rect.unit (s := S2x512x512) ![1, 0, 0] S1x512x512.size inb_S2x512x512_S1x512x512_1_0_0
/-- Graph 0's half of a two-graph mask block. -/
abbrev rM0 : Rect S2x512x1 := Rect.unit (s := S2x512x1) ![0, 0, 0] S1x512x1.size inb_S2x512x1_S1x512x1_0_0_0
/-- Graph 1's half. -/
abbrev rM1 : Rect S2x512x1 := Rect.unit (s := S2x512x1) ![1, 0, 0] S1x512x1.size inb_S2x512x1_S1x512x1_1_0_0
/-- A whole square weight block. -/
abbrev rW : Rect S128x128 := Rect.unit (s := S128x128) ![0, 0] S128x128.size inb_S128x128_S128x128_0_0
/-- A whole bias row. -/
abbrev rB : Rect S1x128 := Rect.unit (s := S1x128) ![0, 0] S1x128.size inb_S1x128_S1x128_0_0
/-- The three aggregated-state weights side by side, whole. -/
abbrev rWa : Rect S128x384 := Rect.unit (s := S128x384) ![0, 0] S128x384.size inb_S128x384_S128x384_0_0
/-- Their biases side by side. -/
abbrev rBa : Rect S1x384 := Rect.unit (s := S1x384) ![0, 0] S1x384.size inb_S1x384_S1x384_0_0
/-- The two state weights side by side, whole. -/
abbrev rWo : Rect S128x256 := Rect.unit (s := S128x256) ![0, 0] S128x256.size inb_S128x256_S128x256_0_0
/-- Their biases side by side. -/
abbrev rBo : Rect S1x256 := Rect.unit (s := S1x256) ![0, 0] S1x256.size inb_S1x256_S1x256_0_0

/-! ## The output buffer after the body -/

/-- The output window's staging buffer after the body, from the input windows' staging buffers
    `x0` (features), `x1` (support), `x2` (mask), `x3`, `x4` (encoder weight and bias), `x5`, `x6`
    (aggregated-state weights and biases), `x7`, `x8` (state weights and biases), `x9`, `x10` (the
    candidate's state weight and bias): its two stores as pieces, the later first. -/
def out0_11 (x0 : Vec F S2x512x128 .f32) (x1 : Vec F S2x512x512 .f32) (x2 : Vec F S2x512x1 .f32)
    (x3 : Vec F S128x128 .f32) (x4 : Vec F S1x128 .f32) (x5 : Vec F S128x384 .f32) (x6 : Vec F S1x384 .f32)
    (x7 : Vec F S128x256 .f32) (x8 : Vec F S1x256 .f32) (x9 : Vec F S128x128 .f32) (x10 : Vec F S1x128 .f32) :
    Vec F S2x512x128 .f32 :=
  have xg0 : Vec F S1x512x128 .f32 := View.ld x0 rG0
  have xg1 : Vec F S1x512x128 .f32 := View.ld x0 rG1
  have sg0 : Vec F S1x512x512 .f32 := View.ld x1 rS0
  have sg1 : Vec F S1x512x512 .f32 := View.ld x1 rS1
  have mg0 : Vec F S1x512x1 .f32 := View.ld x2 rM0
  have mg1 : Vec F S1x512x1 .f32 := View.ld x2 rM1
  have we : Vec F S128x128 .f32 := View.ld x3 rW
  have be : Vec F S1x128 .f32 := View.ld x4 rB
  have wa : Vec F S128x384 .f32 := View.ld x5 rWa
  have ba : Vec F S1x384 .f32 := View.ld x6 rBa
  have wo : Vec F S128x256 .f32 := View.ld x7 rWo
  have bo : Vec F S1x256 .f32 := View.ld x8 rBo
  have wh : Vec F S128x128 .f32 := View.ld x9 rW
  have bh : Vec F S1x128 .f32 := View.ld x10 rB
  -- the encoder on each graph, and graph 0's first aggregation
  have v13 : FVec F S512x128 .f32 := k0_pay3 xg0 we mg0 be
  have v27 : FVec F S512x128 .f32 := k0_pay4 xg1 we mg1 be
  have v30 : FVec F S512x128 .f32 := k0_pay5 xg0 we mg0 be sg0
  -- graph 0, first step
  have v70 : FVec F S512x128 .f32 := k0_pay6 v13 v30 wa ba wo bo wh mg0 bh
  -- graph 1, first step
  have v91 : FVec F S512x128 .f32 := k0_pay9 v27 sg1 wa ba wo bo
  have v108 : FVec F S512x128 .f32 := k0_pay10 v27 sg1 wa ba wo bo wh mg1 bh
  have cst_66 : F .f32 := Scalar.ofBits .f32 0x00000000#32
  have v113 : FVec F S512x128 .f32 := k0_pay11 v27 v91 v108 cst_66
  -- graph 0, second step
  have v134 : FVec F S512x128 .f32 := k0_pay14 v70 sg0 wa ba wo bo
  have v143 : FVec F S512x1 .f32 := k0_pay15 mg0
  have v145 : FVec F S512x128 .f32 := k0_pay16 v70 sg0 wa ba wo bo wh
  have v156 : FVec F S512x128 .f32 := k0_pay17 v70 v134 v143 v145 bh
  -- graph 1, second step
  have v166 : FVec F S512x384 .f32 := k0_pay18 v113 sg1 wa ba
  have v177 : FVec F S512x128 .f32 := k0_pay20 v113 sg1 wa ba wo bo
  have v184 : FVec F S512x128 .f32 := k0_pay21 v113 sg1 wa ba wo bo wh
  View.canon [⟨rG1, k0_pay2 v113 v166 v177 v184 mg1 bh⟩, ⟨rG0, k0_pay1 v156⟩]

end Cert.Kernel.Fr

end
-- ==== Proof.KFrame.lean ====
/-
  The frame certificate of the program on the kit: the output window's buffer after the body as the two graph
  halves stored over the payload chain, the body's triple, the pipeline's proof data, the body obligation at a
  generic grid point, the run of @main and the frame claim at any float instance.
-/
import proofs.«126110_g44787918963399_cont_sun_c4_384_8_alg».proof.Proof.KFrameKit
import proofs.«126110_g44787918963399_cont_sun_c4_384_8_alg».proof.Proof.KOut
import proofs.«126110_g44787918963399_cont_sun_c4_384_8_alg».proof.Proof.Gen.Kernel.Skeleton

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output's two stores cover its buffer -/

/-- The two graph halves tile the two-graph block, so the stores cover it. -/
theorem cover0_11 (p1 p0 : Vec F S1x512x128 .f32) (y : S2x512x128.Idx) :
    ∃ pc ∈ ([⟨rG1, p1⟩, ⟨rG0, p0⟩] : List (View.Piece (Elt F) S2x512x128 .f32)), y ∈ pc.1.set :=
  View.cover_of_tiled [⟨rG1, p1⟩, ⟨rG0, p0⟩] S1x512x128.size (by rfl) y

/-! ## The body's triple -/

set_option maxHeartbeats 4000000 in
/-- The kernel body on whole staging memrefs, the inputs' at read contents `xW` and the output's at anything, runs
    to the continuation holding the inputs' as they were and the output's at `out0_11` of the inputs'. -/
theorem sound_kernel (c : Dev nD) (E : Set ℕ) (i : grid0.Coords) (arg1 : Memref sig .tc .vmem S2x512x128 .f32) (harg1 : arg1.IsWhole) (arg2 : Memref sig .tc .vmem S2x512x512 .f32) (harg2 : arg2.IsWhole) (arg3 : Memref sig .tc .vmem S2x512x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x384 .f32) (harg6 : arg6.IsWhole) (arg7 : Memref sig .tc .vmem S1x384 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S2x512x128 .f32) (harg12 : arg12.IsWhole)
    (x0 : Vec F S2x512x128 .f32) (x1 : Vec F S2x512x512 .f32) (x2 : Vec F S2x512x1 .f32) (x3 : Vec F S128x128 .f32) (x4 : Vec F S1x128 .f32) (x5 : Vec F S128x384 .f32) (x6 : Vec F S1x384 .f32) (x7 : Vec F S128x256 .f32) (x8 : Vec F S1x256 .f32) (x9 : Vec F S128x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__graph_gru_kernel i arg1 harg1 arg2 harg2 arg3 harg3 arg4 harg4 arg5 harg5 arg6 harg6 arg7 harg7 arg8 harg8 arg9 harg9 arg10 harg10 arg11 harg11 arg12 harg12) K := by
  simp only [cc0__graph_gru_kernel_eq_skeleton]; unfold cc0__graph_gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  unfold out0_11
  exact View.read_writes_eq_canon _ _ _ (cover0_11 _ _)

/-! ## The pipeline's proof data -/

/-- The proof data of the one pipeline on core `c`: the arrays as the region finds them; after the body at point
    `t` each input's buffer at its block and the output's at `out0_11` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance: @main runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Fr

end
-- ==== Proof.Spec.lean ====
/-
  One graph of the gated graph layer, over the extended reals.

  A graph is a feature matrix X (512 rows, 128 columns), a support matrix S (512 by 512) and a row mask M.
  The encoder is  O₀ = M ⊙ max (X·Wenc + benc, 0).  A propagation step takes O to

      A  = S·O
      z  = σ ((A·Wz0 + bz0) + (O·Wz1 + bz1))
      r  = σ ((A·Wr0 + br0) + (O·Wr1 + br1))
      hh = max (M ⊙ (candidate), 0)
      O' = blend of hh and O by z

  in two spellings that differ in how the candidate's four summands are grouped and in how the blend is written:
  `stepK` groups ((A·Wh0 + bh0) + (r⊙O)·Wh1) + bh1 and blends O + z·(hh − O); `stepR` groups
  (A·Wh0 + bh0) + ((r⊙O)·Wh1 + bh1) and blends hh·z + O·(1 − z). Addition of extended reals is associative, so the
  grouping never matters; the two blends agree when O and hh are real numbers (z, a value of σ, always is), and
  they are real when every input is: sums, products and maxima of reals are real.
-/
import Idealize.ShloMosaic.PureOps.Ideal
import Idealize.ShloMosaic.PureOps.Ideal.Laws

noncomputable section

namespace Gru

open Idealize.ShloMosaic

/-- A matrix of extended reals. -/
abbrev Mat (n m : ℕ) := Fin n → Fin m → EReal

/-- The matrix product, entry (i, j) the sum over l of A i l · B l j. -/
def mm {n k m : ℕ} (A : Mat n k) (B : Mat k m) : Mat n m := fun i j => ∑ l : Fin k, A i l * B l j

/-- The layer's weights: an encoder and, for each of the gates z, r and the candidate h, a pair of
    weight matrices and biases (index 0 multiplies the aggregated state, index 1 the state itself). -/
structure Params where
  Wenc : Mat 128 128
  benc : Fin 128 → EReal
  Wz0 : Mat 128 128
  bz0 : Fin 128 → EReal
  Wz1 : Mat 128 128
  bz1 : Fin 128 → EReal
  Wr0 : Mat 128 128
  br0 : Fin 128 → EReal
  Wr1 : Mat 128 128
  br1 : Fin 128 → EReal
  Wh0 : Mat 128 128
  bh0 : Fin 128 → EReal
  Wh1 : Mat 128 128
  bh1 : Fin 128 → EReal

/-- The encoder: M ⊙ max (X·W + b, 0). -/
def enc (X : Mat 512 128) (M : Fin 512 → EReal) (W : Mat 128 128) (b : Fin 128 → EReal) : Mat 512 128 :=
  fun i j => M i * max (mm X W i j + b j) 0

/-- A gate: σ ((A·W0 + b0) + (O·W1 + b1)). -/
def gate (A O : Mat 512 128) (W0 : Mat 128 128) (b0 : Fin 128 → EReal) (W1 : Mat 128 128) (b1 : Fin 128 → EReal) :
    Mat 512 128 :=
  fun i j => Ideal.logistic ((mm A W0 i j + b0 j) + (mm O W1 i j + b1 j))

/-- One propagation step, first spelling. -/
def stepK (P : Params) (S : Mat 512 512) (M : Fin 512 → EReal) (O : Mat 512 128) : Mat 512 128 :=
  fun i j =>
    O i j + gate (mm S O) O P.Wz0 P.bz0 P.Wz1 P.bz1 i j *
      (max (M i * (((mm (mm S O) P.Wh0 i j + P.bh0 j)
          + mm (fun i' l => gate (mm S O) O P.Wr0 P.br0 P.Wr1 P.br1 i' l * O i' l) P.Wh1 i j) + P.bh1 j)) 0 - O i j)

/-- One propagation step, second spelling. -/
def stepR (P : Params) (S : Mat 512 512) (M : Fin 512 → EReal) (O : Mat 512 128) : Mat 512 128 :=
  fun i j =>
    max (M i * ((mm (mm S O) P.Wh0 i j + P.bh0 j)
          + (mm (fun i' l => gate (mm S O) O P.Wr0 P.br0 P.Wr1 P.br1 i' l * O i' l) P.Wh1 i j + P.bh1 j))) 0
        * gate (mm S O) O P.Wz0 P.bz0 P.Wz1 P.bz1 i j
      + O i j * (1 - gate (mm S O) O P.Wz0 P.bz0 P.Wz1 P.bz1 i j)

/-- The layer on one graph: the encoder, then two steps; first spelling. -/
def outK (P : Params) (X : Mat 512 128) (S : Mat 512 512) (M : Fin 512 → EReal) : Mat 512 128 :=
  stepK P S M (stepK P S M (enc X M P.Wenc P.benc))

/-- The layer on one graph, second spelling. -/
def outR (P : Params) (X : Mat 512 128) (S : Mat 512 512) (M : Fin 512 → EReal) : Mat 512 128 :=
  stepR P S M (stepR P S M (enc X M P.Wenc P.benc))

/-- An extended real that is a real number. -/
def IsR (x : EReal) : Prop := ∃ r : ℝ, x = (r : EReal)

/-- Every weight is a real number. -/
structure Params.IsReal (P : Params) : Prop where
  Wenc : ∀ i j, IsR (P.Wenc i j)
  benc : ∀ j, IsR (P.benc j)
  Wz0 : ∀ i j, IsR (P.Wz0 i j)
  bz0 : ∀ j, IsR (P.bz0 j)
  Wz1 : ∀ i j, IsR (P.Wz1 i j)
  bz1 : ∀ j, IsR (P.bz1 j)
  Wr0 : ∀ i j, IsR (P.Wr0 i j)
  br0 : ∀ j, IsR (P.br0 j)
  Wr1 : ∀ i j, IsR (P.Wr1 i j)
  br1 : ∀ j, IsR (P.br1 j)
  Wh0 : ∀ i j, IsR (P.Wh0 i j)
  bh0 : ∀ j, IsR (P.bh0 j)
  Wh1 : ∀ i j, IsR (P.Wh1 i j)
  bh1 : ∀ j, IsR (P.bh1 j)

/-- Zero is a real number. -/
theorem IsR.zero : IsR 0 := ⟨0, rfl⟩

/-- One is a real number. -/
theorem IsR.one : IsR 1 := ⟨1, rfl⟩

/-- A sum of two reals is real. -/
theorem IsR.add {a b : EReal} (ha : IsR a) (hb : IsR b) : IsR (a + b) := by
  obtain ⟨x, rfl⟩ := ha
  obtain ⟨y, rfl⟩ := hb
  exact ⟨x + y, (EReal.coe_add x y).symm⟩

/-- A product of two reals is real. -/
theorem IsR.mul {a b : EReal} (ha : IsR a) (hb : IsR b) : IsR (a * b) := by
  obtain ⟨x, rfl⟩ := ha
  obtain ⟨y, rfl⟩ := hb
  exact ⟨x * y, (EReal.coe_mul x y).symm⟩

/-- A difference of two reals is real. -/
theorem IsR.sub {a b : EReal} (ha : IsR a) (hb : IsR b) : IsR (a - b) := by
  obtain ⟨x, rfl⟩ := ha
  obtain ⟨y, rfl⟩ := hb
  exact ⟨x - y, (EReal.coe_sub x y).symm⟩

/-- The larger of two reals is real. -/
theorem IsR.max {a b : EReal} (ha : IsR a) (hb : IsR b) : IsR (max a b) := by
  rcases max_choice a b with h | h
  · rw [h]; exact ha
  · rw [h]; exact hb

/-- A finite sum of real-valued terms is real. -/
theorem IsR.sum {ι : Type} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The logistic function of any extended real is a real number: 0 at ⊥, 1 at ⊤, 1 / (1 + e⁻ʳ) at a real r. -/
theorem IsR.logistic (x : EReal) : IsR (Ideal.logistic x) := by
  induction x using EReal.rec with
  | bot => rw [Ideal.logistic_bot]; exact IsR.zero
  | coe r => rw [Ideal.logistic_coe]; exact ⟨_, rfl⟩
  | top => rw [Ideal.logistic_top]; exact IsR.one

/-- A product of real matrices is real. -/
theorem isR_mm {n k m : ℕ} {A : Mat n k} {B : Mat k m} (hA : ∀ i j, IsR (A i j)) (hB : ∀ i j, IsR (B i j))
    (i : Fin n) (j : Fin m) : IsR (mm A B i j) :=
  IsR.sum _ _ fun l _ => (hA i l).mul (hB l j)

/-- The encoder of real data is real. -/
theorem isR_enc {X : Mat 512 128} {M : Fin 512 → EReal} {W : Mat 128 128} {b : Fin 128 → EReal}
    (hX : ∀ i j, IsR (X i j)) (hM : ∀ i, IsR (M i)) (hW : ∀ i j, IsR (W i j)) (hb : ∀ j, IsR (b j))
    (i : Fin 512) (j : Fin 128) : IsR (enc X M W b i j) :=
  (hM i).mul (((isR_mm hX hW i j).add (hb j)).max IsR.zero)

/-- A gate, a value of the logistic function, is always real. -/
theorem isR_gate (A O : Mat 512 128) (W0 : Mat 128 128) (b0 : Fin 128 → EReal) (W1 : Mat 128 128)
    (b1 : Fin 128 → EReal) (i : Fin 512) (j : Fin 128) : IsR (gate A O W0 b0 W1 b1 i j) :=
  IsR.logistic _

/-- The two blends agree on reals: o + z (h − o) = h z + o (1 − z). -/
theorem blend_eq {o h z : EReal} (ho : IsR o) (hh : IsR h) (hz : IsR z) :
    o + z * (h - o) = h * z + o * (1 - z) := by
  obtain ⟨a, rfl⟩ := ho
  obtain ⟨b, rfl⟩ := hh
  obtain ⟨c, rfl⟩ := hz
  rw [← EReal.coe_sub, ← EReal.coe_mul, ← EReal.coe_add, ← EReal.coe_one, ← EReal.coe_sub, ← EReal.coe_mul,
    ← EReal.coe_mul, ← EReal.coe_add]
  congr 1
  ring

/-- The candidate of real data (second grouping), masked and clamped at zero, is real. -/
theorem isR_cand {P : Params} (hP : P.IsReal) {S : Mat 512 512} {M : Fin 512 → EReal} {O : Mat 512 128}
    (hS : ∀ i j, IsR (S i j)) (hM : ∀ i, IsR (M i)) (hO : ∀ i j, IsR (O i j)) (i : Fin 512) (j : Fin 128) :
    IsR (max (M i * ((mm (mm S O) P.Wh0 i j + P.bh0 j)
          + (mm (fun i' l => gate (mm S O) O P.Wr0 P.br0 P.Wr1 P.br1 i' l * O i' l) P.Wh1 i j + P.bh1 j))) 0) :=
  ((hM i).mul (((isR_mm (isR_mm hS hO) hP.Wh0 i j).add (hP.bh0 j)).add
    ((isR_mm (fun i' l => (isR_gate _ _ _ _ _ _ i' l).mul (hO i' l)) hP.Wh1 i j).add (hP.bh1 j)))).max IsR.zero

/-- On real data the two spellings of a step agree: regroup the candidate's summands by associativity of
    addition, then the blends agree on reals. -/
theorem stepK_eq_stepR {P : Params} (hP : P.IsReal) {S : Mat 512 512} {M : Fin 512 → EReal} {O : Mat 512 128}
    (hS : ∀ i j, IsR (S i j)) (hM : ∀ i, IsR (M i)) (hO : ∀ i j, IsR (O i j)) :
    stepK P S M O = stepR P S M O := by
  funext i j
  simp only [stepK, stepR]
  rw [add_assoc (mm (mm S O) P.Wh0 i j + P.bh0 j)]
  exact blend_eq (hO i j) (isR_cand hP hS hM hO i j) (isR_gate _ _ _ _ _ _ i j)

/-- A step of real data (second spelling) is real. -/
theorem isR_stepR {P : Params} (hP : P.IsReal) {S : Mat 512 512} {M : Fin 512 → EReal} {O : Mat 512 128}
    (hS : ∀ i j, IsR (S i j)) (hM : ∀ i, IsR (M i)) (hO : ∀ i j, IsR (O i j)) (i : Fin 512) (j : Fin 128) :
    IsR (stepR P S M O i j) :=
  ((isR_cand hP hS hM hO i j).mul (isR_gate _ _ _ _ _ _ i j)).add
    ((hO i j).mul (IsR.one.sub (isR_gate _ _ _ _ _ _ i j)))

/-- On real inputs the two spellings of the layer agree. -/
theorem outK_eq_outR (P : Params) (hP : P.IsReal) (X : Mat 512 128) (S : Mat 512 512) (M : Fin 512 → EReal)
    (hX : ∀ i j, IsR (X i j)) (hS : ∀ i j, IsR (S i j)) (hM : ∀ i, IsR (M i)) :
    outK P X S M = outR P X S M := by
  have hE : ∀ i j, IsR (enc X M P.Wenc P.benc i j) := isR_enc hX hM hP.Wenc hP.benc
  unfold outK outR
  rw [stepK_eq_stepR hP hS hM hE, stepK_eq_stepR hP hS hM (isR_stepR hP hS hM hE)]

end Gru

end
-- ==== Proof.Whole.lean ====
/-
  The layer on a whole batch: graph b's matrices are the slices at leading index b of the feature, support and
  mask arrays, the weights are the weight arrays read entry by entry, and the result at (b, i, j) is the
  one-graph layer's entry (i, j) on graph b. On the kernel's side three of the weight matrices arrive side by
  side in one 128 × 384 block (columns 0–127, 128–255, 256–383), two in one 128 × 256 block, and their
  biases likewise in rows of 384 and 256 entries.
-/
import proofs.«126110_g44787918963399_cont_sun_c4_384_8_alg».proof.Proof.Spec
import Idealize.ShloMosaic.Lib.ValueIdx

noncomputable section

namespace Gru

open Idealize.ShloMosaic Idealize.ShloMosaic.ValueIdx

/-- Arrays of extended reals of rank 3, 2 and 1. -/
abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- A rank-2 array as a matrix. -/
def matOf {n k : ℕ} (w : A2 n k) : Mat n k := fun i j => w (ix2 i j)
/-- A rank-1 array as a vector. -/
def vecOf {n : ℕ} (b : A1 n) : Fin n → EReal := fun j => b (ix1 j)
/-- The one row of a 1 × n array as a vector. -/
def rowOf {n : ℕ} (b : A2 1 n) : Fin n → EReal := fun j => b (ix2 0 j)
/-- Columns k … k+127 of a wider matrix. -/
def colsOf {n w : ℕ} (k : ℕ) (h : k + 128 ≤ w) (x : A2 n w) : Mat n 128 :=
  fun i j => x (ix2 i ⟨j.val + k, by have := j.isLt; omega⟩)
/-- Entries k … k+127 of the one row of a 1 × w array. -/
def rowColsOf {w : ℕ} (k : ℕ) (h : k + 128 ≤ w) (x : A2 1 w) : Fin 128 → EReal :=
  fun j => x (ix2 0 ⟨j.val + k, by have := j.isLt; omega⟩)

/-- Graph b's feature matrix. -/
def gX (a0 : A3 32 512 128) (b : Fin 32) : Mat 512 128 := fun i k => a0 (ix3 b i k)
/-- Graph b's support matrix. -/
def gS (a1 : A3 32 512 512) (b : Fin 32) : Mat 512 512 := fun i k => a1 (ix3 b i k)
/-- Graph b's row mask. -/
def gM (a2 : A3 32 512 1) (b : Fin 32) : Fin 512 → EReal := fun i => a2 (ix3 b i 0)

/-- The weights, from the fourteen weight arrays in argument order. -/
def params (a3 : A2 128 128) (a4 : A1 128) (a5 : A2 128 128) (a6 : A1 128) (a7 : A2 128 128) (a8 : A1 128)
    (a9 : A2 128 128) (a10 : A1 128) (a11 : A2 128 128) (a12 : A1 128) (a13 : A2 128 128) (a14 : A1 128)
    (a15 : A2 128 128) (a16 : A1 128) : Params where
  Wenc := matOf a3
  benc := vecOf a4
  Wz0 := matOf a5
  bz0 := vecOf a6
  Wz1 := matOf a7
  bz1 := vecOf a8
  Wr0 := matOf a9
  br0 := vecOf a10
  Wr1 := matOf a11
  br1 := vecOf a12
  Wh0 := matOf a13
  bh0 := vecOf a14
  Wh1 := matOf a15
  bh1 := vecOf a16

/-- The weights, from the kernel's eight weight blocks: the encoder's weight and bias row, the three
    aggregated-state weights side by side and their bias row, the two state weights side by side and their
    bias row, the candidate's state weight and bias row. -/
def kparams (x3 : A2 128 128) (x4 : A2 1 128) (x5 : A2 128 384) (x6 : A2 1 384) (x7 : A2 128 256) (x8 : A2 1 256)
    (x9 : A2 128 128) (x10 : A2 1 128) : Params where
  Wenc := matOf x3
  benc := rowOf x4
  Wz0 := colsOf 0 (by norm_num) x5
  bz0 := rowColsOf 0 (by norm_num) x6
  Wz1 := colsOf 0 (by norm_num) x7
  bz1 := rowColsOf 0 (by norm_num) x8
  Wr0 := colsOf 128 (by norm_num) x5
  br0 := rowColsOf 128 (by norm_num) x6
  Wr1 := colsOf 128 (by norm_num) x7
  br1 := rowColsOf 128 (by norm_num) x8
  Wh0 := colsOf 256 (by norm_num) x5
  bh0 := rowColsOf 256 (by norm_num) x6
  Wh1 := matOf x9
  bh1 := rowOf x10

/-- The layer on the whole batch, first spelling: entry (b, i, j) is graph b's entry (i, j). -/
def wholeK (a0 : A3 32 512 128) (a1 : A3 32 512 512) (a2 : A3 32 512 1) (P : Params) : A3 32 512 128 :=
  fun i => outK P (gX a0 (i 0)) (gS a1 (i 0)) (gM a2 (i 0)) (i 1) (i 2)

/-- The layer on the whole batch, second spelling. -/
def wholeR (a0 : A3 32 512 128) (a1 : A3 32 512 512) (a2 : A3 32 512 1) (P : Params) : A3 32 512 128 :=
  fun i => outR P (gX a0 (i 0)) (gS a1 (i 0)) (gM a2 (i 0)) (i 1) (i 2)

theorem wholeK_apply (a0 : A3 32 512 128) (a1 : A3 32 512 512) (a2 : A3 32 512 1) (P : Params)
    (b : Fin 32) (r : Fin 512) (c : Fin 128) :
    wholeK a0 a1 a2 P (ix3 b r c) = outK P (gX a0 b) (gS a1 b) (gM a2 b) r c := rfl

theorem wholeR_apply (a0 : A3 32 512 128) (a1 : A3 32 512 512) (a2 : A3 32 512 1) (P : Params)
    (b : Fin 32) (r : Fin 512) (c : Fin 128) :
    wholeR a0 a1 a2 P (ix3 b r c) = outR P (gX a0 b) (gS a1 b) (gM a2 b) r c := rfl

/-- On real data the two spellings agree on the whole batch. -/
theorem wholeK_eq_wholeR (a0 : A3 32 512 128) (a1 : A3 32 512 512) (a2 : A3 32 512 1) (P : Params)
    (h0 : ∀ i, IsR (a0 i)) (h1 : ∀ i, IsR (a1 i)) (h2 : ∀ i, IsR (a2 i)) (hP : P.IsReal) :
    wholeK a0 a1 a2 P = wholeR a0 a1 a2 P := by
  funext i
  exact congrFun (congrFun (outK_eq_outR P hP (gX a0 (i 0)) (gS a1 (i 0)) (gM a2 (i 0))
    (fun _ _ => h0 _) (fun _ _ => h1 _) (fun _ => h2 _)) (i 1)) (i 2)

end Gru

end
-- ==== Proof.KICanon.lean ====
/-
  The layout of the output block and of the loads the body makes, at explicit coordinates: a load of a graph's half
  of a two-graph block reads the block at that graph; a load of a whole weight or bias buffer reads its contents;
  and the two stored halves, laid over one another, read back as graph 0's payload on graph 0's rows and graph 1's
  payload on graph 1's rows.
-/
import proofs.«126110_g44787918963399_cont_sun_c4_384_8_alg».proof.Proof.KIOut
import Idealize.ShloMosaic.Lib.Pipeline.Value
import Idealize.ShloMosaic.Lib.ValueIdx

noncomputable section

namespace Cert.KernelIdeal.Fr

open Idealize.ShloMosaic Idealize.ShloMosaic.TcCoe Idealize.SL.Sem Idealize.ShloMosaic.ValueIdx Cert.KernelIdeal Cert.KernelIdeal.Gen

variable {F : FTy → Type} [FloatOps F]

/-! ## The two-graph blocks -/

/-- Graph 0's half of a S2x512x128 block placed in the block: the same coordinates. -/
theorem idx_G0 (i : Fin 512) (k : Fin 128) : (rG0 : Rect S2x512x128).idx (ix3 (0 : Fin 1) i k) = ix3 (0 : Fin 2) i k := by
  funext a
  match a with
  | ⟨0, _⟩ => exact Fin.ext (by simp [LoadRect.idx])
  | ⟨1, _⟩ => exact Fin.ext (by simp [LoadRect.idx])
  | ⟨2, _⟩ => exact Fin.ext (by simp [LoadRect.idx])
/-- Graph 1's half placed in the block: the leading coordinate becomes 1. -/
theorem idx_G1 (i : Fin 512) (k : Fin 128) : (rG1 : Rect S2x512x128).idx (ix3 (0 : Fin 1) i k) = ix3 (1 : Fin 2) i k := by
  funext a
  match a with
  | ⟨0, _⟩ => exact Fin.ext (by simp [LoadRect.idx])
  | ⟨1, _⟩ => exact Fin.ext (by simp [LoadRect.idx])
  | ⟨2, _⟩ => exact Fin.ext (by simp [LoadRect.idx])
/-- A load of graph 0's half reads the block at graph 0. -/
theorem ld_G0 (x : Vec F S2x512x128 .f32) (i : Fin 512) (k : Fin 128) : View.ld x rG0 (ix3 (0 : Fin 1) i k) = x (ix3 (0 : Fin 2) i k) :=
  congrArg x (idx_G0 i k)
/-- A load of graph 1's half reads the block at graph 1. -/
theorem ld_G1 (x : Vec F S2x512x128 .f32) (i : Fin 512) (k : Fin 128) : View.ld x rG1 (ix3 (0 : Fin 1) i k) = x (ix3 (1 : Fin 2) i k) :=
  congrArg x (idx_G1 i k)

/-- Graph 0's half of a S2x512x512 block placed in the block: the same coordinates. -/
theorem idx_S0 (i : Fin 512) (k : Fin 512) : (rS0 : Rect S2x512x512).idx (ix3 (0 : Fin 1) i k) = ix3 (0 : Fin 2) i k := by
  funext a
  match a with
  | ⟨0, _⟩ => exact Fin.ext (by simp [LoadRect.idx])
  | ⟨1, _⟩ => exact Fin.ext (by simp [LoadRect.idx])
  | ⟨2, _⟩ => exact Fin.ext (by simp [LoadRect.idx])
/-- Graph 1's half placed in the block: the leading coordinate becomes 1. -/
theorem idx_S1 (i : Fin 512) (k : Fin 512) : (rS1 : Rect S2x512x512).idx (ix3 (0 : Fin 1) i k) = ix3 (1 : Fin 2) i k := by
  funext a
  match a with
  | ⟨0, _⟩ => exact Fin.ext (by simp [LoadRect.idx])
  | ⟨1, _⟩ => exact Fin.ext (by simp [LoadRect.idx])
  | ⟨2, _⟩ => exact Fin.ext (by simp [LoadRect.idx])
/-- A load of graph 0's half reads the block at graph 0. -/
theorem ld_S0 (x : Vec F S2x512x512 .f32) (i : Fin 512) (k : Fin 512) : View.ld x rS0 (ix3 (0 : Fin 1) i k) = x (ix3 (0 : Fin 2) i k) :=
  congrArg x (idx_S0 i k)
/-- A load of graph 1's half reads the block at graph 1. -/
theorem ld_S1 (x : Vec F S2x512x512 .f32) (i : Fin 512) (k : Fin 512) : View.ld x rS1 (ix3 (0 : Fin 1) i k) = x (ix3 (1 : Fin 2) i k) :=
  congrArg x (idx_S1 i k)

/-- Graph 0's half of a S2x512x1 block placed in the block: the same coordinates. -/
theorem idx_M0 (i : Fin 512) (k : Fin 1) : (rM0 : Rect S2x512x1).idx (ix3 (0 : Fin 1) i k) = ix3 (0 : Fin 2) i k := by
  funext a
  match a with
  | ⟨0, _⟩ => exact Fin.ext (by simp [LoadRect.idx])
  | ⟨1, _⟩ => exact Fin.ext (by simp [LoadRect.idx])
  | ⟨2, _⟩ => exact Fin.ext (by simp [LoadRect.idx])
/-- Graph 1's half placed in the block: the leading coordinate becomes 1. -/
theorem idx_M1 (i : Fin 512) (k : Fin 1) : (rM1 : Rect S2x512x1).idx (ix3 (0 : Fin 1) i k) = ix3 (1 : Fin 2) i k := by
  funext a
  match a with
  | ⟨0, _⟩ => exact Fin.ext (by simp [LoadRect.idx])
  | ⟨1, _⟩ => exact Fin.ext (by simp [LoadRect.idx])
  | ⟨2, _⟩ => exact Fin.ext (by simp [LoadRect.idx])
/-- A load of graph 0's half reads the block at graph 0. -/
theorem ld_M0 (x : Vec F S2x512x1 .f32) (i : Fin 512) (k : Fin 1) : View.ld x rM0 (ix3 (0 : Fin 1) i k) = x (ix3 (0 : Fin 2) i k) :=
  congrArg x (idx_M0 i k)
/-- A load of graph 1's half reads the block at graph 1. -/
theorem ld_M1 (x : Vec F S2x512x1 .f32) (i : Fin 512) (k : Fin 1) : View.ld x rM1 (ix3 (0 : Fin 1) i k) = x (ix3 (1 : Fin 2) i k) :=
  congrArg x (idx_M1 i k)

/-! ## The whole weight and bias buffers -/

/-- A load of the whole S128x128 buffer reads its contents. -/
theorem ld_W (x : Vec F S128x128 .f32) : View.ld x rW = x :=
  View.ld_unit_zero (S := S128x128) (by funext a; fin_cases a <;> rfl) _ x
/-- A load of the whole S1x128 buffer reads its contents. -/
theorem ld_B (x : Vec F S1x128 .f32) : View.ld x rB = x :=
  View.ld_unit_zero (S := S1x128) (by funext a; fin_cases a <;> rfl) _ x
/-- A load of the whole S128x384 buffer reads its contents. -/
theorem ld_Wa (x : Vec F S128x384 .f32) : View.ld x rWa = x :=
  View.ld_unit_zero (S := S128x384) (by funext a; fin_cases a <;> rfl) _ x
/-- A load of the whole S1x384 buffer reads its contents. -/
theorem ld_Ba (x : Vec F S1x384 .f32) : View.ld x rBa = x :=
  View.ld_unit_zero (S := S1x384) (by funext a; fin_cases a <;> rfl) _ x
/-- A load of the whole S128x256 buffer reads its contents. -/
theorem ld_Wo (x : Vec F S128x256 .f32) : View.ld x rWo = x :=
  View.ld_unit_zero (S := S128x256) (by funext a; fin_cases a <;> rfl) _ x
/-- A load of the whole S1x256 buffer reads its contents. -/
theorem ld_Bo (x : Vec F S1x256 .f32) : View.ld x rBo = x :=
  View.ld_unit_zero (S := S1x256) (by funext a; fin_cases a <;> rfl) _ x

/-! ## The output block: the two stored halves read back -/

/-- Graph 0's rows are outside graph 1's half. -/
theorem not_mem_G1 (r : Fin 512) (c : Fin 128) : ix3 (0 : Fin 2) r c ∉ (rG1 : Rect S2x512x128).set := by
  rw [Rect.mem_set_unit]
  intro h
  have := (h ⟨0, by decide⟩).1
  simp at this

/-- On graph 0's rows the stored block is graph 0's payload. -/
theorem canon_g0 (p1 p0 : Vec F S1x512x128 .f32) (r : Fin 512) (c : Fin 128) :
    (View.canon [⟨rG1, p1⟩, ⟨rG0, p0⟩] : Vec F S2x512x128 .f32) (ix3 (0 : Fin 2) r c) = p0 (ix3 (0 : Fin 1) r c) := by
  have e := View.canon_cons_emb (Val := Elt F) (rG0 : Rect S2x512x128) p0 [] (ix3 (0 : Fin 1) r c)
  rw [show (rG0 : Rect S2x512x128).emb (ix3 (0 : Fin 1) r c) = ix3 (0 : Fin 2) r c from idx_G0 r c] at e
  exact (View.canon_cons_of_not_mem (Val := Elt F) (⟨rG1, p1⟩ : View.Piece (Elt F) S2x512x128 .f32) [⟨rG0, p0⟩]
    (not_mem_G1 r c)).trans e

/-- On graph 1's rows it is graph 1's payload. -/
theorem canon_g1 (p1 p0 : Vec F S1x512x128 .f32) (r : Fin 512) (c : Fin 128) :
    (View.canon [⟨rG1, p1⟩, ⟨rG0, p0⟩] : Vec F S2x512x128 .f32) (ix3 (1 : Fin 2) r c) = p1 (ix3 (0 : Fin 1) r c) := by
  have e := View.canon_cons_emb (Val := Elt F) (rG1 : Rect S2x512x128) p1 [⟨rG0, p0⟩] (ix3 (0 : Fin 1) r c)
  rw [show (rG1 : Rect S2x512x128).emb (ix3 (0 : Fin 1) r c) = ix3 (1 : Fin 2) r c from idx_G1 r c] at e
  exact e

end Cert.KernelIdeal.Fr

end
-- ==== Proof.KIValue.lean ====
/-
  The kernel body's arithmetic on one graph, and its value at an index.

  The body computes, for each of the two graphs of a block, the encoder  O₀ = M ⊙ max (X·Wenc + benc, 0)  and then
  two propagation steps  O ↦ O + z ⊙ (max (M ⊙ (((A·Wh0 + bh0) + (r ⊙ O)·Wh1) + bh1), 0) − O),  with  A = S·O,
  z = σ ((A·Wz0 + bz0) + (O·Wz1 + bz1)),  r = σ ((A·Wr0 + br0) + (O·Wr1 + br1)),  where the three matrices that
  multiply A sit side by side in one 128 × 384 block, the two that multiply O in one 128 × 256 block, and the gates
  read their columns at offsets 0, 128 and 256. Here the body's stages are named as functions of vectors, the
  output buffer is shown to hold, for each graph, two steps of the encoder of that graph's halves of the input
  blocks, and each stage is read at an index: a matrix product as the sum over the contracted coordinate, a sliced
  sum at the shifted column, a broadcast row or column at its one entry. Read so, a step is the specification's
  `Gru.stepK` and the encoder its `Gru.enc`, entry by entry.
-/
import proofs.«126110_g44787918963399_cont_sun_c4_384_8_alg».proof.Proof.KIOut
import proofs.«126110_g44787918963399_cont_sun_c4_384_8_alg».proof.Proof.Whole
import proofs.«126110_g44787918963399_cont_sun_c4_384_8_alg».proof.Proof.KICanon
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KValue

open Idealize.ShloMosaic Idealize.ShloMosaic.ValueIdx Cert.KernelIdeal Cert.KernelIdeal.Gen Cert.KernelIdeal.Fr

/-! ## The body's stages on one graph -/

section Stages

variable {F : FTy → Type} [FloatOps F]

/-- The encoder: M ⊙ max (X·W + b, 0). -/
def kenc (x : FVec F S512x128 .f32) (W : Vec F S128x128 .f32) (mk : FVec F S512x1 .f32) (b : FVec F S1x128 .f32) :
    FVec F S512x128 .f32 :=
  mulf (broadcastTo S512x128 mk broadcasts_S512x1_S512x128)
    (maximumf
      (addf (matmul dot_S512x128_S128x128_S512x128_1_0_0_1_n_n none x W (constant S512x128 .f32 0x00000000#32))
        (broadcastTo S512x128 b broadcasts_S1x128_S512x128))
      (broadcast S512x128 (Scalar.ofBits .f32 0x00000000#32)))

/-- The aggregation A = S·O. -/
def kagg (sup : FVec F S512x512 .f32) (o : FVec F S512x128 .f32) : FVec F S512x128 .f32 :=
  matmul dot_S512x512_S512x128_S512x128_1_0_0_1_n_n none sup o (constant S512x128 .f32 0x00000000#32)

/-- A·[Wz0 | Wr0 | Wh0] + [bz0 | br0 | bh0], 384 columns. -/
def kga (a : FVec F S512x128 .f32) (Wa : FVec F S128x384 .f32) (ba : FVec F S1x384 .f32) : FVec F S512x384 .f32 :=
  addf (matmul dot_S512x128_S128x384_S512x384_1_0_0_1_n_n none a Wa (constant S512x384 .f32 0x00000000#32))
    (broadcastTo S512x384 ba broadcasts_S1x384_S512x384)

/-- O·[Wz1 | Wr1] + [bz1 | br1], 256 columns. -/
def kgo (o : FVec F S512x128 .f32) (Wo : FVec F S128x256 .f32) (bo : FVec F S1x256 .f32) : FVec F S512x256 .f32 :=
  addf (matmul dot_S512x128_S128x256_S512x256_1_0_0_1_n_n none o Wo (constant S512x256 .f32 0x00000000#32))
    (broadcastTo S512x256 bo broadcasts_S1x256_S512x256)

/-- The update gate z: σ of the sum of the two blocks' columns 0–127. -/
def kz (ga : FVec F S512x384 .f32) (go : FVec F S512x256 .f32) : FVec F S512x128 .f32 :=
  logistic (addf (extractStridedSlice S512x128 ![0, 0] ga slices_S512x384_o0_0_S512x128)
    (extractStridedSlice S512x128 ![0, 0] go slices_S512x256_o0_0_S512x128))

/-- The reset gate r: σ of the sum of the two blocks' columns 128–255. -/
def kr (ga : FVec F S512x384 .f32) (go : FVec F S512x256 .f32) : FVec F S512x128 .f32 :=
  logistic (addf (extractStridedSlice S512x128 ![0, 128] ga slices_S512x384_o0_128_S512x128)
    (extractStridedSlice S512x128 ![0, 128] go slices_S512x256_o0_128_S512x128))

/-- (r ⊙ O)·Wh1. -/
def kh1 (r o : FVec F S512x128 .f32) (Wh : Vec F S128x128 .f32) : FVec F S512x128 .f32 :=
  matmul dot_S512x128_S128x128_S512x128_1_0_0_1_n_n none (mulf r o) Wh (constant S512x128 .f32 0x00000000#32)

/-- The candidate's sum before the mask: (columns 256–383 of the first block + (r ⊙ O)·Wh1) + bh1. -/
def kcand (ga : FVec F S512x384 .f32) (h1 : FVec F S512x128 .f32) (bh : FVec F S1x128 .f32) : FVec F S512x128 .f32 :=
  addf (addf (extractStridedSlice S512x128 ![0, 256] ga slices_S512x384_o0_256_S512x128) h1)
    (broadcastTo S512x128 bh broadcasts_S1x128_S512x128)

/-- The blend O + z ⊙ (max (M ⊙ candidate, 0) − O). -/
def kblend (o z cand : FVec F S512x128 .f32) (mk : FVec F S512x1 .f32) : FVec F S512x128 .f32 :=
  addf o (mulf z (subf (maximumf (mulf (broadcastTo S512x128 mk broadcasts_S512x1_S512x128) cand)
    (broadcast S512x128 (Scalar.ofBits .f32 0x00000000#32))) o))

/-- One propagation step. -/
def kstep (sup : FVec F S512x512 .f32) (mk : FVec F S512x1 .f32) (Wa : FVec F S128x384 .f32) (ba : FVec F S1x384 .f32)
    (Wo : FVec F S128x256 .f32) (bo : FVec F S1x256 .f32) (Wh : Vec F S128x128 .f32) (bh : FVec F S1x128 .f32)
    (o : FVec F S512x128 .f32) : FVec F S512x128 .f32 :=
  kblend o (kz (kga (kagg sup o) Wa ba) (kgo o Wo bo))
    (kcand (kga (kagg sup o) Wa ba) (kh1 (kr (kga (kagg sup o) Wa ba) (kgo o Wo bo)) o Wh) bh) mk

/-- The body on one graph's halves of the feature, support and mask blocks and the weight blocks: the encoder,
    then two steps, as a one-graph block. -/
def kgraph (xg : Vec F S1x512x128 .f32) (sg : Vec F S1x512x512 .f32) (mg : Vec F S1x512x1 .f32)
    (we : Vec F S128x128 .f32) (be : Vec F S1x128 .f32) (wa : Vec F S128x384 .f32) (ba : Vec F S1x384 .f32)
    (wo : Vec F S128x256 .f32) (bo : Vec F S1x256 .f32) (wh : Vec F S128x128 .f32) (bh : Vec F S1x128 .f32) :
    FVec F S1x512x128 .f32 :=
  shapeCast S1x512x128
    (kstep (shapeCast S512x512 sg shapeCasts_S1x512x512_S512x512) (shapeCast S512x1 mg shapeCasts_S1x512x1_S512x1)
      (shapeCast S128x384 wa shapeCasts_S128x384_S128x384) (shapeCast S1x384 ba shapeCasts_S1x384_S1x384)
      (shapeCast S128x256 wo shapeCasts_S128x256_S128x256) (shapeCast S1x256 bo shapeCasts_S1x256_S1x256)
      wh (shapeCast S1x128 bh shapeCasts_S1x128_S1x128)
      (kstep (shapeCast S512x512 sg shapeCasts_S1x512x512_S512x512) (shapeCast S512x1 mg shapeCasts_S1x512x1_S512x1)
        (shapeCast S128x384 wa shapeCasts_S128x384_S128x384) (shapeCast S1x384 ba shapeCasts_S1x384_S1x384)
        (shapeCast S128x256 wo shapeCasts_S128x256_S128x256) (shapeCast S1x256 bo shapeCasts_S1x256_S1x256)
        wh (shapeCast S1x128 bh shapeCasts_S1x128_S1x128)
        (kenc (shapeCast S512x128 xg shapeCasts_S1x512x128_S512x128) we
          (shapeCast S512x1 mg shapeCasts_S1x512x1_S512x1) (shapeCast S1x128 be shapeCasts_S1x128_S1x128))))
    shapeCasts_S512x128_S1x512x128

/-- The output buffer after the body: graph 1's half holds the body's arithmetic on graph 1's halves of the input
    blocks, graph 0's half that on graph 0's. -/
theorem out0_11_eq (x0 : Vec F S2x512x128 .f32) (x1 : Vec F S2x512x512 .f32) (x2 : Vec F S2x512x1 .f32)
    (x3 : Vec F S128x128 .f32) (x4 : Vec F S1x128 .f32) (x5 : Vec F S128x384 .f32) (x6 : Vec F S1x384 .f32)
    (x7 : Vec F S128x256 .f32) (x8 : Vec F S1x256 .f32) (x9 : Vec F S128x128 .f32) (x10 : Vec F S1x128 .f32) :
    out0_11 x0 x1 x2 x3 x4 x5 x6 x7 x8 x9 x10
      = View.canon [⟨rG1, kgraph (View.ld x0 rG1) (View.ld x1 rS1) (View.ld x2 rM1) (View.ld x3 rW) (View.ld x4 rB)
            (View.ld x5 rWa) (View.ld x6 rBa) (View.ld x7 rWo) (View.ld x8 rBo) (View.ld x9 rW) (View.ld x10 rB)⟩,
          ⟨rG0, kgraph (View.ld x0 rG0) (View.ld x1 rS0) (View.ld x2 rM0) (View.ld x3 rW) (View.ld x4 rB)
            (View.ld x5 rWa) (View.ld x6 rBa) (View.ld x7 rWo) (View.ld x8 rBo) (View.ld x9 rW) (View.ld x10 rB)⟩] :=
  rfl

end Stages

/-! ## The four matrix products at an index -/

section Products

/-- The 512 × 128 by 128 × 128 product's left operand index keeps the row; -/
theorem lhs_sq_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
/-- its column is the contracted coordinate; -/
theorem lhs_sq_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
/-- the right operand's row is the contracted coordinate; -/
theorem rhs_sq_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
/-- and its column the output's column. -/
theorem rhs_sq_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl
/-- The 512 × 128 by 128 × 128 product into the zero accumulator, at (r, c): ∑ₖ l (r, k) · w (k, c). -/
theorem mm_sq_apply (l : FVec Ideal S512x128 .f32) (w : FVec Ideal S128x128 .f32) (r : Fin 512) (c : Fin 128) :
    matmul dot_S512x128_S128x128_S512x128_1_0_0_1_n_n none l w (constant (F := Ideal) S512x128 .f32 0x00000000#32) (ix2 r c)
      = ∑ k : Fin 128, l (ix2 r k) * w (ix2 k c) := by
  refine (Ideal.matmul_constant_zero_apply dot_S512x128_S128x128_S512x128_1_0_0_1_n_n none l w (ix2 r c)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c) ((contrEquiv1 dot_S512x128_S128x128_S512x128_1_0_0_1_n_n 128 rfl rfl).symm k) = ix2 r k :=
    funext fun a => Fin.ext (by
      match a with
      | ⟨0, _⟩ => exact lhs_sq_0 _ _
      | ⟨1, _⟩ => exact (lhs_sq_1 _ _).trans hk)
  have er : dot_S512x128_S128x128_S512x128_1_0_0_1_n_n.rhsIdx (ix2 r c) ((contrEquiv1 dot_S512x128_S128x128_S512x128_1_0_0_1_n_n 128 rfl rfl).symm k) = ix2 k c :=
    funext fun a => Fin.ext (by
      match a with
      | ⟨0, _⟩ => exact (rhs_sq_0 _ _).trans hk
      | ⟨1, _⟩ => exact rhs_sq_1 _ _)
  rw [el, er]

/-- The 512 × 512 by 512 × 128 product's left operand index keeps the row; -/
theorem lhs_agg_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
/-- its column is the contracted coordinate; -/
theorem lhs_agg_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
/-- the right operand's row is the contracted coordinate; -/
theorem rhs_agg_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
/-- and its column the output's column. -/
theorem rhs_agg_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl
/-- The 512 × 512 by 512 × 128 product into the zero accumulator, at (r, c): ∑ₖ l (r, k) · w (k, c). -/
theorem mm_agg_apply (l : FVec Ideal S512x512 .f32) (w : FVec Ideal S512x128 .f32) (r : Fin 512) (c : Fin 128) :
    matmul dot_S512x512_S512x128_S512x128_1_0_0_1_n_n none l w (constant (F := Ideal) S512x128 .f32 0x00000000#32) (ix2 r c)
      = ∑ k : Fin 512, l (ix2 r k) * w (ix2 k c) := by
  refine (Ideal.matmul_constant_zero_apply dot_S512x512_S512x128_S512x128_1_0_0_1_n_n none l w (ix2 r c)).trans ?_
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 r c) ((contrEquiv1 dot_S512x512_S512x128_S512x128_1_0_0_1_n_n 512 rfl rfl).symm k) = ix2 r k :=
    funext fun a => Fin.ext (by
      match a with
      | ⟨0, _⟩ => exact lhs_agg_0 _ _
      | ⟨1, _⟩ => exact (lhs_agg_1 _ _).trans hk)
  have er : dot_S512x512_S512x128_S512x128_1_0_0_1_n_n.rhsIdx (ix2 r c) ((contrEquiv1 dot_S512x512_S512x128_S512x128_1_0_0_1_n_n 512 rfl rfl).symm k) = ix2 k c :=
    funext fun a => Fin.ext (by
      match a with
      | ⟨0, _⟩ => exact (rhs_agg_0 _ _).trans hk
      | ⟨1, _⟩ => exact rhs_agg_1 _ _)
  rw [el, er]

/-- The 512 × 128 by 128 × 384 product's left operand index keeps the row; -/
theorem lhs_a3_0 (i : S512x384.Idx) (q : dot_S512x128_S128x384_S512x384_1_0_0_1_n_n.contr.Idx) :
    (dot_S512x128_S128x384_S512x384_1_0_0_1_n_n.lhsIdx i q 0).val = (i 0).val := by
  unfold DotDims.lhsIdx
  rw [dif_neg (show ¬(0 : Fin S512x128.rank) ∈ dot_S512x128_S128x384_S512x384_1_0_0_1_n_n.lhsBatch by decide), dif_pos (show (0 : Fin S512x128.rank) ∈ dot_S512x128_S128x384_S512x384_1_0_0_1_n_n.lhsNonContracting by decide)]
  rfl
/-- its column is the contracted coordinate; -/
theorem lhs_a3_1 (i : S512x384.Idx) (q : dot_S512x128_S128x384_S512x384_1_0_0_1_n_n.contr.Idx) :
    (dot_S512x128_S128x384_S512x384_1_0_0_1_n_n.lhsIdx i q 1).val = (q ⟨0, by decide⟩).val :=
  dot_S512x128_S128x384_S512x384_1_0_0_1_n_n.lhsIdx_val_of_single rfl i q
/-- the right operand's row is the contracted coordinate; -/
theorem rhs_a3_0 (i : S512x384.Idx) (q : dot_S512x128_S128x384_S512x384_1_0_0_1_n_n.contr.Idx) :
    (dot_S512x128_S128x384_S512x384_1_0_0_1_n_n.rhsIdx i q 0).val = (q ⟨0, by decide⟩).val :=
  dot_S512x128_S128x384_S512x384_1_0_0_1_n_n.rhsIdx_val_of_single rfl i q
/-- and its column the output's column. -/
theorem rhs_a3_1 (i : S512x384.Idx) (q : dot_S512x128_S128x384_S512x384_1_0_0_1_n_n.contr.Idx) :
    (dot_S512x128_S128x384_S512x384_1_0_0_1_n_n.rhsIdx i q 1).val = (i 1).val := by
  unfold DotDims.rhsIdx
  rw [dif_neg (show ¬(1 : Fin S128x384.rank) ∈ dot_S512x128_S128x384_S512x384_1_0_0_1_n_n.rhsBatch by decide), dif_pos (show (1 : Fin S128x384.rank) ∈ dot_S512x128_S128x384_S512x384_1_0_0_1_n_n.rhsNonContracting by decide)]
  rfl
/-- The 512 × 128 by 128 × 384 product into the zero accumulator, at (r, c): ∑ₖ l (r, k) · w (k, c). -/
theorem mm_a3_apply (l : FVec Ideal S512x128 .f32) (w : FVec Ideal S128x384 .f32) (r : Fin 512) (c : Fin 384) :
    matmul dot_S512x128_S128x384_S512x384_1_0_0_1_n_n none l w (constant (F := Ideal) S512x384 .f32 0x00000000#32) (ix2 r c)
      = ∑ k : Fin 128, l (ix2 r k) * w (ix2 k c) := by
  refine (Ideal.matmul_constant_zero_apply dot_S512x128_S128x384_S512x384_1_0_0_1_n_n none l w (ix2 r c)).trans ?_
  rw [← Equiv.sum_comp (contrEquiv1 dot_S512x128_S128x384_S512x384_1_0_0_1_n_n 128 rfl rfl).symm]
  refine Finset.sum_congr rfl fun k _ => ?_
  have hk := contrEquiv1_symm_val dot_S512x128_S128x384_S512x384_1_0_0_1_n_n 128 rfl rfl k
  have el : dot_S512x128_S128x384_S512x384_1_0_0_1_n_n.lhsIdx (ix2 r c) ((contrEquiv1 dot_S512x128_S128x384_S512x384_1_0_0_1_n_n 128 rfl rfl).symm k) = ix2 r k :=
    funext fun a => Fin.ext (by
      match a with
      | ⟨0, _⟩ => exact lhs_a3_0 _ _
      | ⟨1, _⟩ => exact (lhs_a3_1 _ _).trans hk)
  have er : dot_S512x128_S128x384_S512x384_1_0_0_1_n_n.rhsIdx (ix2 r c) ((contrEquiv1 dot_S512x128_S128x384_S512x384_1_0_0_1_n_n 128 rfl rfl).symm k) = ix2 k c :=
    funext fun a => Fin.ext (by
      match a with
      | ⟨0, _⟩ => exact (rhs_a3_0 _ _).trans hk
      | ⟨1, _⟩ => exact rhs_a3_1 _ _)
  rw [el, er]

/-- The 512 × 128 by 128 × 256 product's left operand index keeps the row; -/
theorem lhs_o2_0 (i : S512x256.Idx) (q : dot_S512x128_S128x256_S512x256_1_0_0_1_n_n.contr.Idx) :
    (dot_S512x128_S128x256_S512x256_1_0_0_1_n_n.lhsIdx i q 0).val = (i 0).val := by
  unfold DotDims.lhsIdx
  rw [dif_neg (show ¬(0 : Fin S512x128.rank) ∈ dot_S512x128_S128x256_S512x256_1_0_0_1_n_n.lhsBatch by decide), dif_pos (show (0 : Fin S512x128.rank) ∈ dot_S512x128_S128x256_S512x256_1_0_0_1_n_n.lhsNonContracting by decide)]
  rfl
/-- its column is the contracted coordinate; -/
theorem lhs_o2_1 (i : S512x256.Idx) (q : dot_S512x128_S128x256_S512x256_1_0_0_1_n_n.contr.Idx) :
    (dot_S512x128_S128x256_S512x256_1_0_0_1_n_n.lhsIdx i q 1).val = (q ⟨0, by decide⟩).val :=
  dot_S512x128_S128x256_S512x256_1_0_0_1_n_n.lhsIdx_val_of_single rfl i q
/-- the right operand's row is the contracted coordinate; -/
theorem rhs_o2_0 (i : S512x256.Idx) (q : dot_S512x128_S128x256_S512x256_1_0_0_1_n_n.contr.Idx) :
    (dot_S512x128_S128x256_S512x256_1_0_0_1_n_n.rhsIdx i q 0).val = (q ⟨0, by decide⟩).val :=
  dot_S512x128_S128x256_S512x256_1_0_0_1_n_n.rhsIdx_val_of_single rfl i q
/-- and its column the output's column. -/
theorem rhs_o2_1 (i : S512x256.Idx) (q : dot_S512x128_S128x256_S512x256_1_0_0_1_n_n.contr.Idx) :
    (dot_S512x128_S128x256_S512x256_1_0_0_1_n_n.rhsIdx i q 1).val = (i 1).val := by
  unfold DotDims.rhsIdx
  rw [dif_neg (show ¬(1 : Fin S128x256.rank) ∈ dot_S512x128_S128x256_S512x256_1_0_0_1_n_n.rhsBatch by decide), dif_pos (show (1 : Fin S128x256.rank) ∈ dot_S512x128_S128x256_S512x256_1_0_0_1_n_n.rhsNonContracting by decide)]
  rfl
/-- The 512 × 128 by 128 × 256 product into the zero accumulator, at (r, c): ∑ₖ l (r, k) · w (k, c). -/
theorem mm_o2_apply (l : FVec Ideal S512x128 .f32) (w : FVec Ideal S128x256 .f32) (r : Fin 512) (c : Fin 256) :
    matmul dot_S512x128_S128x256_S512x256_1_0_0_1_n_n none l w (constant (F := Ideal) S512x256 .f32 0x00000000#32) (ix2 r c)
      = ∑ k : Fin 128, l (ix2 r k) * w (ix2 k c) := by
  refine (Ideal.matmul_constant_zero_apply dot_S512x128_S128x256_S512x256_1_0_0_1_n_n none l w (ix2 r c)).trans ?_
  rw [← Equiv.sum_comp (contrEquiv1 dot_S512x128_S128x256_S512x256_1_0_0_1_n_n 128 rfl rfl).symm]
  refine Finset.sum_congr rfl fun k _ => ?_
  have hk := contrEquiv1_symm_val dot_S512x128_S128x256_S512x256_1_0_0_1_n_n 128 rfl rfl k
  have el : dot_S512x128_S128x256_S512x256_1_0_0_1_n_n.lhsIdx (ix2 r c) ((contrEquiv1 dot_S512x128_S128x256_S512x256_1_0_0_1_n_n 128 rfl rfl).symm k) = ix2 r k :=
    funext fun a => Fin.ext (by
      match a with
      | ⟨0, _⟩ => exact lhs_o2_0 _ _
      | ⟨1, _⟩ => exact (lhs_o2_1 _ _).trans hk)
  have er : dot_S512x128_S128x256_S512x256_1_0_0_1_n_n.rhsIdx (ix2 r c) ((contrEquiv1 dot_S512x128_S128x256_S512x256_1_0_0_1_n_n 128 rfl rfl).symm k) = ix2 k c :=
    funext fun a => Fin.ext (by
      match a with
      | ⟨0, _⟩ => exact (rhs_o2_0 _ _).trans hk
      | ⟨1, _⟩ => exact rhs_o2_1 _ _)
  rw [el, er]

end Products

/-! ## Layout operations of the body at an index -/

section Layout

variable {α : Type}

/-- A column [512, 1] broadcast over 128 columns reads, at (r, c), the column's entry r. -/
theorem bcast_col_apply (mk : S512x1.Idx → α) (r : Fin 512) (c : Fin 128) :
    broadcastTo S512x128 mk broadcasts_S512x1_S512x128 (ix2 r c) = mk (ix2 r (0 : Fin 1)) := by
  refine broadcastTo_apply mk broadcasts_S512x1_S512x128 (ix2 r c) (ix2 r (0 : Fin 1)) fun ax => ?_
  match ax with
  | ⟨0, _⟩ =>
    show r.val = if (512 : Nat) = 1 then 0 else r.val
    rw [if_neg (by decide)]
  | ⟨1, _⟩ => rfl

end Layout

/-! ## The stages at an index, over the extended reals -/

section AtIdeal

/-- The zero literal is the extended real 0. -/
theorem zero_lit : (Scalar.ofBits .f32 0x00000000#32 : Ideal .f32) = 0 := Ideal.ofBits_zero_f32

/-- The logistic function of a vector, at an index, is the logistic function of the entry. -/
theorem logistic_apply {s : Shape} {φ : FTy} (x : FVec Ideal s φ) (i : s.Idx) : logistic x i = Ideal.logistic (x i) := rfl

/-- The encoder at (r, c) is the specification's. -/
theorem kenc_apply (x : FVec Ideal S512x128 .f32) (W : FVec Ideal S128x128 .f32) (mk : FVec Ideal S512x1 .f32)
    (b : FVec Ideal S1x128 .f32) (r : Fin 512) (c : Fin 128) :
    kenc x W mk b (ix2 r c)
      = Gru.enc (Gru.matOf x) (fun i => mk (ix2 i (0 : Fin 1))) (Gru.matOf W) (Gru.rowOf b) r c := by
  unfold kenc
  rw [mulf_apply, maximumf_apply, addf_apply, broadcast_apply, bcast_col_apply, broadcastTo_1b_ab_apply,
    mm_sq_apply, zero_lit]
  rfl

/-- The aggregation, as a matrix, is the product of the support matrix and the state. -/
theorem matOf_kagg (sup : FVec Ideal S512x512 .f32) (o : FVec Ideal S512x128 .f32) :
    Gru.matOf (kagg sup o) = Gru.mm (Gru.matOf sup) (Gru.matOf o) :=
  funext fun r => funext fun c => mm_agg_apply sup o r c

/-- The 384-column block at (r, j): (A·Wa) (r, j) + ba j. -/
theorem kga_apply (a : FVec Ideal S512x128 .f32) (Wa : FVec Ideal S128x384 .f32) (ba : FVec Ideal S1x384 .f32)
    (r : Fin 512) (j : Fin 384) :
    kga a Wa ba (ix2 r j) = Gru.mm (Gru.matOf a) (Gru.matOf Wa) r j + ba (ix2 (0 : Fin 1) j) := by
  unfold kga
  rw [addf_apply, broadcastTo_1b_ab_apply, mm_a3_apply]
  rfl

/-- The 256-column block at (r, j): (O·Wo) (r, j) + bo j. -/
theorem kgo_apply (o : FVec Ideal S512x128 .f32) (Wo : FVec Ideal S128x256 .f32) (bo : FVec Ideal S1x256 .f32)
    (r : Fin 512) (j : Fin 256) :
    kgo o Wo bo (ix2 r j) = Gru.mm (Gru.matOf o) (Gru.matOf Wo) r j + bo (ix2 (0 : Fin 1) j) := by
  unfold kgo
  rw [addf_apply, broadcastTo_1b_ab_apply, mm_o2_apply]
  rfl

/-- The update gate at (r, c): σ of the two blocks' sums at column c + 0. -/
theorem kz_apply (ga : FVec Ideal S512x384 .f32) (go : FVec Ideal S512x256 .f32) (r : Fin 512) (c : Fin 128) :
    kz ga go (ix2 r c)
      = Ideal.logistic (ga (ix2 r (⟨c.val + 0, by have := c.isLt; omega⟩ : Fin 384))
          + go (ix2 r (⟨c.val + 0, by have := c.isLt; omega⟩ : Fin 256))) := by
  unfold kz
  rw [logistic_apply, addf_apply,
    slice2_axis1_apply 0 ga slices_S512x384_o0_0_S512x128 r c ⟨c.val + 0, by have := c.isLt; omega⟩ (by show c.val + 0 = 0 + c.val; omega),
    slice2_axis1_apply 0 go slices_S512x256_o0_0_S512x128 r c ⟨c.val + 0, by have := c.isLt; omega⟩ (by show c.val + 0 = 0 + c.val; omega)]

/-- The reset gate at (r, c): σ of the two blocks' sums at column c + 128. -/
theorem kr_apply (ga : FVec Ideal S512x384 .f32) (go : FVec Ideal S512x256 .f32) (r : Fin 512) (c : Fin 128) :
    kr ga go (ix2 r c)
      = Ideal.logistic (ga (ix2 r (⟨c.val + 128, by have := c.isLt; omega⟩ : Fin 384))
          + go (ix2 r (⟨c.val + 128, by have := c.isLt; omega⟩ : Fin 256))) := by
  unfold kr
  rw [logistic_apply, addf_apply,
    slice2_axis1_apply 128 ga slices_S512x384_o0_128_S512x128 r c ⟨c.val + 128, by have := c.isLt; omega⟩ (by show c.val + 128 = 128 + c.val; omega),
    slice2_axis1_apply 128 go slices_S512x256_o0_128_S512x128 r c ⟨c.val + 128, by have := c.isLt; omega⟩ (by show c.val + 128 = 128 + c.val; omega)]

/-- (r ⊙ O)·Wh1 at (r, c). -/
theorem kh1_apply (g o : FVec Ideal S512x128 .f32) (Wh : FVec Ideal S128x128 .f32) (r : Fin 512) (c : Fin 128) :
    kh1 g o Wh (ix2 r c) = Gru.mm (fun i l => g (ix2 i l) * o (ix2 i l)) (Gru.matOf Wh) r c := by
  unfold kh1
  rw [mm_sq_apply]
  rfl

/-- The candidate's sum at (r, c): (first block at column c + 256 + h1 (r, c)) + bh c. -/
theorem kcand_apply (ga : FVec Ideal S512x384 .f32) (h1 : FVec Ideal S512x128 .f32) (bh : FVec Ideal S1x128 .f32)
    (r : Fin 512) (c : Fin 128) :
    kcand ga h1 bh (ix2 r c)
      = (ga (ix2 r (⟨c.val + 256, by have := c.isLt; omega⟩ : Fin 384)) + h1 (ix2 r c)) + bh (ix2 (0 : Fin 1) c) := by
  unfold kcand
  rw [addf_apply, addf_apply, broadcastTo_1b_ab_apply,
    slice2_axis1_apply 256 ga slices_S512x384_o0_256_S512x128 r c ⟨c.val + 256, by have := c.isLt; omega⟩ (by show c.val + 256 = 256 + c.val; omega)]

/-- The blend at (r, c). -/
theorem kblend_apply (o z cand : FVec Ideal S512x128 .f32) (mk : FVec Ideal S512x1 .f32) (r : Fin 512) (c : Fin 128) :
    kblend o z cand mk (ix2 r c)
      = o (ix2 r c) + z (ix2 r c) * (max (mk (ix2 r (0 : Fin 1)) * cand (ix2 r c)) 0 - o (ix2 r c)) := by
  unfold kblend
  rw [addf_apply, mulf_apply, subf_apply, maximumf_apply, mulf_apply, broadcast_apply, bcast_col_apply, zero_lit]

end AtIdeal

/-! ## A step and the encoder against the specification -/

section Step

/-- The mask column of a [512, 1] vector as a function of the row. -/
def maskOf (mk : FVec Ideal S512x1 .f32) : Fin 512 → EReal := fun i => mk (ix2 i (0 : Fin 1))

variable (x3 : FVec Ideal S128x128 .f32) (x4 : FVec Ideal S1x128 .f32)
  (sup : FVec Ideal S512x512 .f32) (mk : FVec Ideal S512x1 .f32) (Wa : FVec Ideal S128x384 .f32)
  (ba : FVec Ideal S1x384 .f32) (Wo : FVec Ideal S128x256 .f32) (bo : FVec Ideal S1x256 .f32)
  (Wh : FVec Ideal S128x128 .f32) (bh : FVec Ideal S1x128 .f32) (o : FVec Ideal S512x128 .f32)

/-- The update gate of a step is the specification's gate on the blocks' columns 0–127. -/
theorem kz_gate (r : Fin 512) (c : Fin 128) :
    kz (kga (kagg sup o) Wa ba) (kgo o Wo bo) (ix2 r c)
      = Gru.gate (Gru.mm (Gru.matOf sup) (Gru.matOf o)) (Gru.matOf o)
          (Gru.kparams x3 x4 Wa ba Wo bo Wh bh).Wz0 (Gru.kparams x3 x4 Wa ba Wo bo Wh bh).bz0
          (Gru.kparams x3 x4 Wa ba Wo bo Wh bh).Wz1 (Gru.kparams x3 x4 Wa ba Wo bo Wh bh).bz1 r c := by
  rw [kz_apply, kga_apply, kgo_apply, matOf_kagg]
  rfl

/-- The reset gate of a step is the specification's gate on the blocks' columns 128–255. -/
theorem kr_gate (r : Fin 512) (c : Fin 128) :
    kr (kga (kagg sup o) Wa ba) (kgo o Wo bo) (ix2 r c)
      = Gru.gate (Gru.mm (Gru.matOf sup) (Gru.matOf o)) (Gru.matOf o)
          (Gru.kparams x3 x4 Wa ba Wo bo Wh bh).Wr0 (Gru.kparams x3 x4 Wa ba Wo bo Wh bh).br0
          (Gru.kparams x3 x4 Wa ba Wo bo Wh bh).Wr1 (Gru.kparams x3 x4 Wa ba Wo bo Wh bh).br1 r c := by
  rw [kr_apply, kga_apply, kgo_apply, matOf_kagg]
  rfl

/-- The reset gate times the state, as a matrix, is the specification's. -/
theorem kr_mul (i : Fin 512) (l : Fin 128) :
    kr (kga (kagg sup o) Wa ba) (kgo o Wo bo) (ix2 i l) * o (ix2 i l)
      = Gru.gate (Gru.mm (Gru.matOf sup) (Gru.matOf o)) (Gru.matOf o)
          (Gru.kparams x3 x4 Wa ba Wo bo Wh bh).Wr0 (Gru.kparams x3 x4 Wa ba Wo bo Wh bh).br0
          (Gru.kparams x3 x4 Wa ba Wo bo Wh bh).Wr1 (Gru.kparams x3 x4 Wa ba Wo bo Wh bh).br1 i l * Gru.matOf o i l := by
  rw [kr_gate x3 x4 sup Wa ba Wo bo Wh bh o i l]
  rfl

/-- A step of the body at (r, c) is the specification's step, on the weights read from the blocks. -/
theorem kstep_apply (r : Fin 512) (c : Fin 128) :
    kstep sup mk Wa ba Wo bo Wh bh o (ix2 r c)
      = Gru.stepK (Gru.kparams x3 x4 Wa ba Wo bo Wh bh) (Gru.matOf sup) (maskOf mk) (Gru.matOf o) r c := by
  unfold kstep
  rw [kblend_apply, kz_gate x3 x4 sup Wa ba Wo bo Wh bh o r c, kcand_apply, kga_apply, matOf_kagg, kh1_apply,
    funext fun i => funext fun l => kr_mul x3 x4 sup Wa ba Wo bo Wh bh o i l]
  rfl

/-- A step of the body, as a matrix. -/
theorem matOf_kstep :
    Gru.matOf (kstep sup mk Wa ba Wo bo Wh bh o)
      = Gru.stepK (Gru.kparams x3 x4 Wa ba Wo bo Wh bh) (Gru.matOf sup) (maskOf mk) (Gru.matOf o) :=
  funext fun r => funext fun c => kstep_apply x3 x4 sup mk Wa ba Wo bo Wh bh o r c

/-- The encoder of the body, as a matrix. -/
theorem matOf_kenc (x : FVec Ideal S512x128 .f32) :
    Gru.matOf (kenc x x3 mk x4) = Gru.enc (Gru.matOf x) (maskOf mk) (Gru.matOf x3) (Gru.rowOf x4) :=
  funext fun r => funext fun c => kenc_apply x x3 mk x4 r c

end Step

/-! ## One graph's block against the specification, and the output buffer -/

section Graph

/-- A [1, a, b] block cast to [a, b], as a matrix, is the block's one slab. -/
theorem matOf_cast {a b : ℕ} (x : (⟨3, ![1, a, b]⟩ : Shape).Idx → EReal)
    (h : (⟨3, ![1, a, b]⟩ : Shape).ShapeCasts ⟨2, ![a, b]⟩) :
    Gru.matOf (shapeCast ⟨2, ![a, b]⟩ x h) = fun i k => x (ix3 (0 : Fin 1) i k) :=
  funext fun i => funext fun k => shapeCast_1ab_ab_apply x h i k

/-- The mask block cast to a column, as a function of the row, is the block's one slab's column. -/
theorem maskOf_cast (mg : Vec Ideal S1x512x1 .f32) :
    maskOf (shapeCast S512x1 mg shapeCasts_S1x512x1_S512x1) = fun i => mg (ix3 (0 : Fin 1) i (0 : Fin 1)) :=
  funext fun i => shapeCast_1ab_ab_apply mg shapeCasts_S1x512x1_S512x1 i (0 : Fin 1)

/-- The body on one graph's blocks, at (0, r, c), is the specification's layer on that graph, entry (r, c). -/
theorem kgraph_apply (xg : Vec Ideal S1x512x128 .f32) (sg : Vec Ideal S1x512x512 .f32) (mg : Vec Ideal S1x512x1 .f32)
    (we : Vec Ideal S128x128 .f32) (be : Vec Ideal S1x128 .f32) (wa : Vec Ideal S128x384 .f32)
    (ba : Vec Ideal S1x384 .f32) (wo : Vec Ideal S128x256 .f32) (bo : Vec Ideal S1x256 .f32)
    (wh : Vec Ideal S128x128 .f32) (bh : Vec Ideal S1x128 .f32) (r : Fin 512) (c : Fin 128) :
    kgraph xg sg mg we be wa ba wo bo wh bh (ix3 (0 : Fin 1) r c)
      = Gru.outK (Gru.kparams we be wa ba wo bo wh bh) (fun i k => xg (ix3 (0 : Fin 1) i k))
          (fun i k => sg (ix3 (0 : Fin 1) i k)) (fun i => mg (ix3 (0 : Fin 1) i (0 : Fin 1))) r c := by
  unfold kgraph
  rw [shapeCast_ab_1ab_apply, shapeCast_self wa, shapeCast_self ba, shapeCast_self wo, shapeCast_self bo,
    shapeCast_self bh, shapeCast_self be, kstep_apply we be, matOf_kstep we be, matOf_kenc, matOf_cast, matOf_cast,
    maskOf_cast]
  rfl

end Graph

/-- The output buffer after the body, at (g, r, c): the specification's layer on graph g of the block, with the
    weights read from the kernel's eight weight blocks, entry (r, c). -/
theorem out_apply (x0 : Vec Ideal S2x512x128 .f32) (x1 : Vec Ideal S2x512x512 .f32) (x2 : Vec Ideal S2x512x1 .f32)
    (x3 : Vec Ideal S128x128 .f32) (x4 : Vec Ideal S1x128 .f32) (x5 : Vec Ideal S128x384 .f32)
    (x6 : Vec Ideal S1x384 .f32) (x7 : Vec Ideal S128x256 .f32) (x8 : Vec Ideal S1x256 .f32)
    (x9 : Vec Ideal S128x128 .f32) (x10 : Vec Ideal S1x128 .f32) (g : Fin 2) (r : Fin 512) (c : Fin 128) :
    out0_11 (F := Ideal) x0 x1 x2 x3 x4 x5 x6 x7 x8 x9 x10 (ix3 g r c)
      = Gru.outK (Gru.kparams x3 x4 x5 x6 x7 x8 x9 x10) (fun i k => x0 (ix3 g i k)) (fun i k => x1 (ix3 g i k))
          (fun i => x2 (ix3 g i 0)) r c := by
  rw [out0_11_eq, ld_W, ld_B, ld_Wa, ld_Ba, ld_Wo, ld_Bo, ld_W, ld_B]
  match g with
  | ⟨0, _⟩ =>
    refine (canon_g0 _ _ r c).trans ?_
    rw [kgraph_apply]
    have hX : (fun i k => View.ld x0 rG0 (ix3 (0 : Fin 1) i k)) = fun i k => x0 (ix3 (0 : Fin 2) i k) :=
      funext fun i => funext fun k => ld_G0 x0 i k
    have hS : (fun i k => View.ld x1 rS0 (ix3 (0 : Fin 1) i k)) = fun i k => x1 (ix3 (0 : Fin 2) i k) :=
      funext fun i => funext fun k => ld_S0 x1 i k
    have hM : (fun i => View.ld x2 rM0 (ix3 (0 : Fin 1) i (0 : Fin 1))) = fun i => x2 (ix3 (0 : Fin 2) i (0 : Fin 1)) :=
      funext fun i => ld_M0 x2 i 0
    exact congrFun (congrFun (congr (congr (congrArg (Gru.outK (Gru.kparams x3 x4 x5 x6 x7 x8 x9 x10)) hX) hS) hM) r) c
  | ⟨1, _⟩ =>
    refine (canon_g1 _ _ r c).trans ?_
    rw [kgraph_apply]
    have hX : (fun i k => View.ld x0 rG1 (ix3 (0 : Fin 1) i k)) = fun i k => x0 (ix3 (1 : Fin 2) i k) :=
      funext fun i => funext fun k => ld_G1 x0 i k
    have hS : (fun i k => View.ld x1 rS1 (ix3 (0 : Fin 1) i k)) = fun i k => x1 (ix3 (1 : Fin 2) i k) :=
      funext fun i => funext fun k => ld_S1 x1 i k
    have hM : (fun i => View.ld x2 rM1 (ix3 (0 : Fin 1) i (0 : Fin 1))) = fun i => x2 (ix3 (1 : Fin 2) i (0 : Fin 1)) :=
      funext fun i => ld_M1 x2 i 0
    exact congrFun (congrFun (congr (congr (congrArg (Gru.outK (Gru.kparams x3 x4 x5 x6 x7 x8 x9 x10)) hX) hS) hM) r) c

end Cert.KernelIdeal.KValue

end
-- ==== Proof.KIHost.lean ====
/-
  The weights on the kernel's side. Before its one region the program lays three of the weight matrices side by
  side in one 128 × 384 array and two in one 128 × 256 array, their biases end to end as rows of 384 and 256
  entries, and two more biases as rows of 128 entries. Read back entry by entry — columns and row entries
  0–127, 128–255, 256–383 of the joined arrays — the eight blocks hold exactly the fourteen weight arrays.
-/
import proofs.«126110_g44787918963399_cont_sun_c4_384_8_alg».proof.Proof.KIFrameKit
import proofs.«126110_g44787918963399_cont_sun_c4_384_8_alg».proof.Proof.Whole
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.KHost

open Idealize.ShloMosaic Idealize.ShloMosaic.TcCoe Idealize.ShloMosaic.ValueIdx Idealize.SL.Sem Cert.KernelIdeal Cert.KernelIdeal.Gen Cert.KernelIdeal.Fr

variable (m : (ℓ : Loc nD τ sig) → Buf (Elt Ideal) ℓ)

/-! ## What each written array holds when the region is entered -/

/-- The three aggregated-state weights side by side. -/
theorem v0_eq (c : Dev nD) : (V m c main_v0 : S128x384.Idx → EReal)
    = concatenate S128x384 1 [⟨S128x128, (m ((c : Thread nD τ).loc main_arg5) : S128x128.Idx → EReal)⟩,
        ⟨S128x128, (m ((c : Thread nD τ).loc main_arg9) : S128x128.Idx → EReal)⟩,
        ⟨S128x128, (m ((c : Thread nD τ).loc main_arg13) : S128x128.Idx → EReal)⟩]
        concatenates_S128x128_S128x128_S128x128_S128x384_d1 := by
  dsimp only [V, hostOps0]; after_results; rfl

/-- Their three biases end to end, as one row. -/
theorem v2_eq (c : Dev nD) : (V m c main_v2 : S1x384.Idx → EReal)
    = shapeCast S1x384 (concatenate S384 0 [⟨S128, (m ((c : Thread nD τ).loc main_arg6) : S128.Idx → EReal)⟩,
        ⟨S128, (m ((c : Thread nD τ).loc main_arg10) : S128.Idx → EReal)⟩,
        ⟨S128, (m ((c : Thread nD τ).loc main_arg14) : S128.Idx → EReal)⟩]
        concatenates_S128_S128_S128_S384_d0) shapeCasts_S384_S1x384 := by
  dsimp only [V, hostOps0]; after_results; rfl

/-- The two state weights side by side. -/
theorem v3_eq (c : Dev nD) : (V m c main_v3 : S128x256.Idx → EReal)
    = concatenate S128x256 1 [⟨S128x128, (m ((c : Thread nD τ).loc main_arg7) : S128x128.Idx → EReal)⟩,
        ⟨S128x128, (m ((c : Thread nD τ).loc main_arg11) : S128x128.Idx → EReal)⟩]
        concatenates_S128x128_S128x128_S128x256_d1 := by
  dsimp only [V, hostOps0]; after_results

/-- Their two biases end to end, as one row. -/
theorem v5_eq (c : Dev nD) : (V m c main_v5 : S1x256.Idx → EReal)
    = shapeCast S1x256 (concatenate S256 0 [⟨S128, (m ((c : Thread nD τ).loc main_arg8) : S128.Idx → EReal)⟩,
        ⟨S128, (m ((c : Thread nD τ).loc main_arg12) : S128.Idx → EReal)⟩]
        concatenates_S128_S128_S256_d0) shapeCasts_S256_S1x256 := by
  dsimp only [V, hostOps0]; after_results; rfl

/-- The encoder's bias as one row. -/
theorem v6_eq (c : Dev nD) : (V m c main_v6 : S1x128.Idx → EReal)
    = shapeCast S1x128 (m ((c : Thread nD τ).loc main_arg4) : S128.Idx → EReal) shapeCasts_S128_S1x128 := by
  dsimp only [V, hostOps0]; after_results; rfl

/-- The candidate's state bias as one row. -/
theorem v7_eq (c : Dev nD) : (V m c main_v7 : S1x128.Idx → EReal)
    = shapeCast S1x128 (m ((c : Thread nD τ).loc main_arg16) : S128.Idx → EReal) shapeCasts_S128_S1x128 := by
  dsimp only [V, hostOps0]; after_results; rfl

/-! ## Reading side-by-side arrays at an index -/

section Reading

variable {α : Type}

/-- Three 128-column matrices side by side: columns 0–127 are the first's. -/
theorem cat3_cols_0 (x0 x1 x2 : S128x128.Idx → α) (i j : Fin 128) (h : j.val + 0 < 384) :
    concatenate S128x384 1 [⟨S128x128, x0⟩, ⟨S128x128, x1⟩, ⟨S128x128, x2⟩]
      concatenates_S128x128_S128x128_S128x128_S128x384_d1 (ix2 i ⟨j.val + 0, h⟩) = x0 (ix2 i j) :=
  concatenate_apply_piece (t := S128x384) (1 : Fin 2) [⟨S128x128, x0⟩, ⟨S128x128, x1⟩, ⟨S128x128, x2⟩]
    concatenates_S128x128_S128x128_S128x128_S128x384_d1 (ix2 i ⟨j.val + 0, h⟩) 0 (show 0 < 3 by decide) S128x128 x0 rfl rfl 0 rfl (ix2 i j)
    (fun b hb => match b, hb with | ⟨0, _⟩, _ => rfl | ⟨1, _⟩, hb => absurd rfl hb)
    (Nat.add_comm 0 j.val)

/-- Three 128-column matrices side by side: columns 128–255 are the second's. -/
theorem cat3_cols_1 (x0 x1 x2 : S128x128.Idx → α) (i j : Fin 128) (h : j.val + 128 < 384) :
    concatenate S128x384 1 [⟨S128x128, x0⟩, ⟨S128x128, x1⟩, ⟨S128x128, x2⟩]
      concatenates_S128x128_S128x128_S128x128_S128x384_d1 (ix2 i ⟨j.val + 128, h⟩) = x1 (ix2 i j) :=
  concatenate_apply_piece (t := S128x384) (1 : Fin 2) [⟨S128x128, x0⟩, ⟨S128x128, x1⟩, ⟨S128x128, x2⟩]
    concatenates_S128x128_S128x128_S128x128_S128x384_d1 (ix2 i ⟨j.val + 128, h⟩) 1 (show 1 < 3 by decide) S128x128 x1 rfl rfl 128 rfl (ix2 i j)
    (fun b hb => match b, hb with | ⟨0, _⟩, _ => rfl | ⟨1, _⟩, hb => absurd rfl hb)
    (Nat.add_comm 128 j.val)

/-- Three 128-column matrices side by side: columns 256–383 are the third's. -/
theorem cat3_cols_2 (x0 x1 x2 : S128x128.Idx → α) (i j : Fin 128) (h : j.val + 256 < 384) :
    concatenate S128x384 1 [⟨S128x128, x0⟩, ⟨S128x128, x1⟩, ⟨S128x128, x2⟩]
      concatenates_S128x128_S128x128_S128x128_S128x384_d1 (ix2 i ⟨j.val + 256, h⟩) = x2 (ix2 i j) :=
  concatenate_apply_piece (t := S128x384) (1 : Fin 2) [⟨S128x128, x0⟩, ⟨S128x128, x1⟩, ⟨S128x128, x2⟩]
    concatenates_S128x128_S128x128_S128x128_S128x384_d1 (ix2 i ⟨j.val + 256, h⟩) 2 (show 2 < 3 by decide) S128x128 x2 rfl rfl 256 rfl (ix2 i j)
    (fun b hb => match b, hb with | ⟨0, _⟩, _ => rfl | ⟨1, _⟩, hb => absurd rfl hb)
    (Nat.add_comm 256 j.val)

/-- Three 128-entry vectors end to end: entries 0–127 are the first's. -/
theorem cat3_vec_0 (x0 x1 x2 : S128.Idx → α) (j : Fin 128) (h : j.val + 0 < 384) :
    concatenate S384 0 [⟨S128, x0⟩, ⟨S128, x1⟩, ⟨S128, x2⟩]
      concatenates_S128_S128_S128_S384_d0 (ix1 ⟨j.val + 0, h⟩) = x0 (ix1 j) :=
  concatenate_apply_piece (t := S384) (0 : Fin 1) [⟨S128, x0⟩, ⟨S128, x1⟩, ⟨S128, x2⟩]
    concatenates_S128_S128_S128_S384_d0 (ix1 ⟨j.val + 0, h⟩) 0 (show 0 < 3 by decide) S128 x0 rfl rfl 0 rfl (ix1 j)
    (fun b hb => match b, hb with | ⟨0, _⟩, hb => absurd rfl hb)
    (Nat.add_comm 0 j.val)

/-- Three 128-entry vectors end to end: entries 128–255 are the second's. -/
theorem cat3_vec_1 (x0 x1 x2 : S128.Idx → α) (j : Fin 128) (h : j.val + 128 < 384) :
    concatenate S384 0 [⟨S128, x0⟩, ⟨S128, x1⟩, ⟨S128, x2⟩]
      concatenates_S128_S128_S128_S384_d0 (ix1 ⟨j.val + 128, h⟩) = x1 (ix1 j) :=
  concatenate_apply_piece (t := S384) (0 : Fin 1) [⟨S128, x0⟩, ⟨S128, x1⟩, ⟨S128, x2⟩]
    concatenates_S128_S128_S128_S384_d0 (ix1 ⟨j.val + 128, h⟩) 1 (show 1 < 3 by decide) S128 x1 rfl rfl 128 rfl (ix1 j)
    (fun b hb => match b, hb with | ⟨0, _⟩, hb => absurd rfl hb)
    (Nat.add_comm 128 j.val)

/-- Three 128-entry vectors end to end: entries 256–383 are the third's. -/
theorem cat3_vec_2 (x0 x1 x2 : S128.Idx → α) (j : Fin 128) (h : j.val + 256 < 384) :
    concatenate S384 0 [⟨S128, x0⟩, ⟨S128, x1⟩, ⟨S128, x2⟩]
      concatenates_S128_S128_S128_S384_d0 (ix1 ⟨j.val + 256, h⟩) = x2 (ix1 j) :=
  concatenate_apply_piece (t := S384) (0 : Fin 1) [⟨S128, x0⟩, ⟨S128, x1⟩, ⟨S128, x2⟩]
    concatenates_S128_S128_S128_S384_d0 (ix1 ⟨j.val + 256, h⟩) 2 (show 2 < 3 by decide) S128 x2 rfl rfl 256 rfl (ix1 j)
    (fun b hb => match b, hb with | ⟨0, _⟩, hb => absurd rfl hb)
    (Nat.add_comm 256 j.val)

/-- Two 128-column matrices side by side: columns 0–127 are the first's. -/
theorem cat2_cols_0 (x0 x1 : S128x128.Idx → α) (i j : Fin 128) (h : j.val + 0 < 256) :
    concatenate S128x256 1 [⟨S128x128, x0⟩, ⟨S128x128, x1⟩]
      concatenates_S128x128_S128x128_S128x256_d1 (ix2 i ⟨j.val + 0, h⟩) = x0 (ix2 i j) :=
  concatenate_apply_piece (t := S128x256) (1 : Fin 2) [⟨S128x128, x0⟩, ⟨S128x128, x1⟩]
    concatenates_S128x128_S128x128_S128x256_d1 (ix2 i ⟨j.val + 0, h⟩) 0 (show 0 < 2 by decide) S128x128 x0 rfl rfl 0 rfl (ix2 i j)
    (fun b hb => match b, hb with | ⟨0, _⟩, _ => rfl | ⟨1, _⟩, hb => absurd rfl hb)
    (Nat.add_comm 0 j.val)

/-- Two 128-column matrices side by side: columns 128–255 are the second's. -/
theorem cat2_cols_1 (x0 x1 : S128x128.Idx → α) (i j : Fin 128) (h : j.val + 128 < 256) :
    concatenate S128x256 1 [⟨S128x128, x0⟩, ⟨S128x128, x1⟩]
      concatenates_S128x128_S128x128_S128x256_d1 (ix2 i ⟨j.val + 128, h⟩) = x1 (ix2 i j) :=
  concatenate_apply_piece (t := S128x256) (1 : Fin 2) [⟨S128x128, x0⟩, ⟨S128x128, x1⟩]
    concatenates_S128x128_S128x128_S128x256_d1 (ix2 i ⟨j.val + 128, h⟩) 1 (show 1 < 2 by decide) S128x128 x1 rfl rfl 128 rfl (ix2 i j)
    (fun b hb => match b, hb with | ⟨0, _⟩, _ => rfl | ⟨1, _⟩, hb => absurd rfl hb)
    (Nat.add_comm 128 j.val)

/-- Two 128-entry vectors end to end: entries 0–127 are the first's. -/
theorem cat2_vec_0 (x0 x1 : S128.Idx → α) (j : Fin 128) (h : j.val + 0 < 256) :
    concatenate S256 0 [⟨S128, x0⟩, ⟨S128, x1⟩]
      concatenates_S128_S128_S256_d0 (ix1 ⟨j.val + 0, h⟩) = x0 (ix1 j) :=
  concatenate_apply_piece (t := S256) (0 : Fin 1) [⟨S128, x0⟩, ⟨S128, x1⟩]
    concatenates_S128_S128_S256_d0 (ix1 ⟨j.val + 0, h⟩) 0 (show 0 < 2 by decide) S128 x0 rfl rfl 0 rfl (ix1 j)
    (fun b hb => match b, hb with | ⟨0, _⟩, hb => absurd rfl hb)
    (Nat.add_comm 0 j.val)

/-- Two 128-entry vectors end to end: entries 128–255 are the second's. -/
theorem cat2_vec_1 (x0 x1 : S128.Idx → α) (j : Fin 128) (h : j.val + 128 < 256) :
    concatenate S256 0 [⟨S128, x0⟩, ⟨S128, x1⟩]
      concatenates_S128_S128_S256_d0 (ix1 ⟨j.val + 128, h⟩) = x1 (ix1 j) :=
  concatenate_apply_piece (t := S256) (0 : Fin 1) [⟨S128, x0⟩, ⟨S128, x1⟩]
    concatenates_S128_S128_S256_d0 (ix1 ⟨j.val + 128, h⟩) 1 (show 1 < 2 by decide) S128 x1 rfl rfl 128 rfl (ix1 j)
    (fun b hb => match b, hb with | ⟨0, _⟩, hb => absurd rfl hb)
    (Nat.add_comm 128 j.val)

end Reading

/-! ## The fourteen weights, block entry against array entry -/

theorem Wenc_eq (c : Dev nD) : Gru.matOf (V m c main_arg3 : Gru.A2 128 128) = Gru.matOf (m ((c : Thread nD τ).loc main_arg3)) := by
  rw [V_main_arg3]

theorem benc_eq (c : Dev nD) : Gru.rowOf (V m c main_v6 : Gru.A2 1 128) = Gru.vecOf (m ((c : Thread nD τ).loc main_arg4)) := by
  funext j
  show (V m c main_v6 : S1x128.Idx → EReal) (ix2 0 j) = _
  rw [v6_eq]
  exact shapeCast_a_1a_apply _ _ 0 j

theorem Wz0_eq (c : Dev nD) (h : 0 + 128 ≤ 384) : Gru.colsOf 0 h (V m c main_v0 : Gru.A2 128 384) = Gru.matOf (m ((c : Thread nD τ).loc main_arg5)) := by
  funext i j
  show (V m c main_v0 : S128x384.Idx → EReal) (ix2 i ⟨j.val + 0, _⟩) = _
  rw [v0_eq]
  exact cat3_cols_0 _ _ _ i j _

theorem Wr0_eq (c : Dev nD) (h : 128 + 128 ≤ 384) : Gru.colsOf 128 h (V m c main_v0 : Gru.A2 128 384) = Gru.matOf (m ((c : Thread nD τ).loc main_arg9)) := by
  funext i j
  show (V m c main_v0 : S128x384.Idx → EReal) (ix2 i ⟨j.val + 128, _⟩) = _
  rw [v0_eq]
  exact cat3_cols_1 _ _ _ i j _

theorem Wh0_eq (c : Dev nD) (h : 256 + 128 ≤ 384) : Gru.colsOf 256 h (V m c main_v0 : Gru.A2 128 384) = Gru.matOf (m ((c : Thread nD τ).loc main_arg13)) := by
  funext i j
  show (V m c main_v0 : S128x384.Idx → EReal) (ix2 i ⟨j.val + 256, _⟩) = _
  rw [v0_eq]
  exact cat3_cols_2 _ _ _ i j _

theorem bz0_eq (c : Dev nD) (h : 0 + 128 ≤ 384) : Gru.rowColsOf 0 h (V m c main_v2 : Gru.A2 1 384) = Gru.vecOf (m ((c : Thread nD τ).loc main_arg6)) := by
  funext j
  show (V m c main_v2 : S1x384.Idx → EReal) (ix2 0 ⟨j.val + 0, _⟩) = _
  rw [v2_eq]
  exact (shapeCast_a_1a_apply _ _ 0 _).trans (cat3_vec_0 _ _ _ j _)

theorem br0_eq (c : Dev nD) (h : 128 + 128 ≤ 384) : Gru.rowColsOf 128 h (V m c main_v2 : Gru.A2 1 384) = Gru.vecOf (m ((c : Thread nD τ).loc main_arg10)) := by
  funext j
  show (V m c main_v2 : S1x384.Idx → EReal) (ix2 0 ⟨j.val + 128, _⟩) = _
  rw [v2_eq]
  exact (shapeCast_a_1a_apply _ _ 0 _).trans (cat3_vec_1 _ _ _ j _)

theorem bh0_eq (c : Dev nD) (h : 256 + 128 ≤ 384) : Gru.rowColsOf 256 h (V m c main_v2 : Gru.A2 1 384) = Gru.vecOf (m ((c : Thread nD τ).loc main_arg14)) := by
  funext j
  show (V m c main_v2 : S1x384.Idx → EReal) (ix2 0 ⟨j.val + 256, _⟩) = _
  rw [v2_eq]
  exact (shapeCast_a_1a_apply _ _ 0 _).trans (cat3_vec_2 _ _ _ j _)

theorem Wz1_eq (c : Dev nD) (h : 0 + 128 ≤ 256) : Gru.colsOf 0 h (V m c main_v3 : Gru.A2 128 256) = Gru.matOf (m ((c : Thread nD τ).loc main_arg7)) := by
  funext i j
  show (V m c main_v3 : S128x256.Idx → EReal) (ix2 i ⟨j.val + 0, _⟩) = _
  rw [v3_eq]
  exact cat2_cols_0 _ _ i j _

theorem Wr1_eq (c : Dev nD) (h : 128 + 128 ≤ 256) : Gru.colsOf 128 h (V m c main_v3 : Gru.A2 128 256) = Gru.matOf (m ((c : Thread nD τ).loc main_arg11)) := by
  funext i j
  show (V m c main_v3 : S128x256.Idx → EReal) (ix2 i ⟨j.val + 128, _⟩) = _
  rw [v3_eq]
  exact cat2_cols_1 _ _ i j _

theorem bz1_eq (c : Dev nD) (h : 0 + 128 ≤ 256) : Gru.rowColsOf 0 h (V m c main_v5 : Gru.A2 1 256) = Gru.vecOf (m ((c : Thread nD τ).loc main_arg8)) := by
  funext j
  show (V m c main_v5 : S1x256.Idx → EReal) (ix2 0 ⟨j.val + 0, _⟩) = _
  rw [v5_eq]
  exact (shapeCast_a_1a_apply _ _ 0 _).trans (cat2_vec_0 _ _ j _)

theorem br1_eq (c : Dev nD) (h : 128 + 128 ≤ 256) : Gru.rowColsOf 128 h (V m c main_v5 : Gru.A2 1 256) = Gru.vecOf (m ((c : Thread nD τ).loc main_arg12)) := by
  funext j
  show (V m c main_v5 : S1x256.Idx → EReal) (ix2 0 ⟨j.val + 128, _⟩) = _
  rw [v5_eq]
  exact (shapeCast_a_1a_apply _ _ 0 _).trans (cat2_vec_1 _ _ j _)

theorem Wh1_eq (c : Dev nD) : Gru.matOf (V m c main_arg15 : Gru.A2 128 128) = Gru.matOf (m ((c : Thread nD τ).loc main_arg15)) := by
  rw [V_main_arg15]

theorem bh1_eq (c : Dev nD) : Gru.rowOf (V m c main_v7 : Gru.A2 1 128) = Gru.vecOf (m ((c : Thread nD τ).loc main_arg16)) := by
  funext j
  show (V m c main_v7 : S1x128.Idx → EReal) (ix2 0 j) = _
  rw [v7_eq]
  exact shapeCast_a_1a_apply _ _ 0 j

/-! ## The weights the kernel reads are the weights of the arrays -/

/-- The weights read out of the kernel's eight blocks, as the region finds them, are the weights read entry by
    entry out of the fourteen weight arrays as launched. -/
theorem kparams_V (c : Dev nD) :
    Gru.kparams (V m c main_arg3) (V m c main_v6) (V m c main_v0) (V m c main_v2) (V m c main_v3) (V m c main_v5) (V m c main_arg15) (V m c main_v7)
      = Gru.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Gru.kparams Gru.params
  rw [Wenc_eq, benc_eq, Wz0_eq, bz0_eq, Wz1_eq, bz1_eq, Wr0_eq, br0_eq, Wr1_eq, br1_eq, Wh0_eq, bh0_eq, Wh1_eq, bh1_eq]

end Cert.KernelIdeal.KHost

end
-- ==== Proof.KIRun.lean ====
/-
  The idealized kernel's run, read: after it the result array is the whole-batch layer of the argument arrays.

  The grid has sixteen points; point t stages graphs 2t and 2t + 1 of the feature, support and mask arrays and the
  whole weight arrays, and writes back graphs 2t and 2t + 1 of the result. What the body leaves for graph g of the
  point is the one-graph layer on that graph's blocks; a block entry (g, i, k) is the array's entry (2t + g, i, k),
  a weight block is its whole array, and the concatenated weight arrays are the argument weights side by side. So
  each point writes back its block of one function of the arguments, the sixteen blocks cover the array, and the
  array ends holding that function.
-/
import proofs.«126110_g44787918963399_cont_sun_c4_384_8_alg».proof.Proof.KIFrame
import proofs.«126110_g44787918963399_cont_sun_c4_384_8_alg».proof.Proof.KIValue
import proofs.«126110_g44787918963399_cont_sun_c4_384_8_alg».proof.Proof.KIHost
import proofs.«126110_g44787918963399_cont_sun_c4_384_8_alg».proof.Proof.Whole
import Idealize.ShloMosaic.Lib.Pipeline.Value
import Idealize.ShloMosaic.Lib.ValueIdx

set_option maxRecDepth 16384

noncomputable section

namespace Cert.KernelIdeal.KRun

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The result array as one function of the arguments -/

/-- The layer on the whole batch, of the argument arrays as launched. -/
def G (c : Dev nD) : Gru.A3 32 512 128 :=
  Gru.wholeK (m ((c : Thread nD τ).loc main_arg0)) (m ((c : Thread nD τ).loc main_arg1)) (m ((c : Thread nD τ).loc main_arg2))
    (Gru.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)))

/-- The printed index maps over the grid: the feature, support, mask and output windows sit at block (t, 0, 0),
    the weight windows at block (0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_11.index t (0 : Fin 3) = t.val ∧ win0_11.index t (1 : Fin 3) = 0 ∧ win0_11.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem t_lt (t : Fin cfg0.N) : t.val < 16 := by
  exact lt_of_lt_of_eq t.isLt N_0

/-- Graph g of grid point t is graph 2t + g of the batch. -/
def gidx (t : Fin cfg0.N) (g : Fin 2) : Fin 32 := ⟨2 * t.val + g.val, by have := t_lt t; have := g.isLt; omega⟩

/-! ## The windows' blocks, read -/

theorem blk0 (c : Dev nD) (t : Fin cfg0.N) (g : Fin 2) (i : Fin 512) (k : Fin 128) :
    iblk m c 0 t (ix3 g i k) = m ((c : Thread nD τ).loc main_arg0) (ix3 (gidx t g) i k) := by
  show V m c main_arg0 (((cfg0.win 0).blk t).view.emb (ix3 g i k)) = _
  rw [V_main_arg0]
  congr 1
  have hf := idx_facts t
  funext a; apply Fin.ext
  match a with
  | ⟨0, _⟩ => show win0_0.index t (0 : Fin 3) * 2 + 1 * g.val = 2 * t.val + g.val; omega
  | ⟨1, _⟩ => show win0_0.index t (1 : Fin 3) * 512 + 1 * i.val = i.val; omega
  | ⟨2, _⟩ => show win0_0.index t (2 : Fin 3) * 128 + 1 * k.val = k.val; omega

theorem blk1 (c : Dev nD) (t : Fin cfg0.N) (g : Fin 2) (i : Fin 512) (k : Fin 512) :
    iblk m c 1 t (ix3 g i k) = m ((c : Thread nD τ).loc main_arg1) (ix3 (gidx t g) i k) := by
  show V m c main_arg1 (((cfg0.win 1).blk t).view.emb (ix3 g i k)) = _
  rw [V_main_arg1]
  congr 1
  have hf := idx_facts t
  funext a; apply Fin.ext
  match a with
  | ⟨0, _⟩ => show win0_1.index t (0 : Fin 3) * 2 + 1 * g.val = 2 * t.val + g.val; omega
  | ⟨1, _⟩ => show win0_1.index t (1 : Fin 3) * 512 + 1 * i.val = i.val; omega
  | ⟨2, _⟩ => show win0_1.index t (2 : Fin 3) * 512 + 1 * k.val = k.val; omega

theorem blk2 (c : Dev nD) (t : Fin cfg0.N) (g : Fin 2) (i : Fin 512) (k : Fin 1) :
    iblk m c 2 t (ix3 g i k) = m ((c : Thread nD τ).loc main_arg2) (ix3 (gidx t g) i k) := by
  show V m c main_arg2 (((cfg0.win 2).blk t).view.emb (ix3 g i k)) = _
  rw [V_main_arg2]
  congr 1
  have hf := idx_facts t
  funext a; apply Fin.ext
  match a with
  | ⟨0, _⟩ => show win0_2.index t (0 : Fin 3) * 2 + 1 * g.val = 2 * t.val + g.val; omega
  | ⟨1, _⟩ => show win0_2.index t (1 : Fin 3) * 512 + 1 * i.val = i.val; omega
  | ⟨2, _⟩ => show win0_2.index t (2 : Fin 3) * 1 + 1 * k.val = k.val; omega

theorem blk3 (c : Dev nD) (t : Fin cfg0.N) : (iblk m c 3 t : S128x128.Idx → EReal) = V m c main_arg3 := by
  funext y
  show V m c main_arg3 (((cfg0.win 3).blk t).view.emb y) = V m c main_arg3 y
  congr 1
  have hf := idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4 (c : Dev nD) (t : Fin cfg0.N) : (iblk m c 4 t : S1x128.Idx → EReal) = V m c main_v6 := by
  funext y
  show V m c main_v6 (((cfg0.win 4).blk t).view.emb y) = V m c main_v6 y
  congr 1
  have hf := idx_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5 (c : Dev nD) (t : Fin cfg0.N) : (iblk m c 5 t : S128x384.Idx → EReal) = V m c main_v0 := by
  funext y
  show V m c main_v0 (((cfg0.win 5).blk t).view.emb y) = V m c main_v0 y
  congr 1
  have hf := idx_facts t
  funext a; apply Fin.ext
  match a with
  | ⟨0, _⟩ => show win0_5.index t (0 : Fin 2) * 128 + 1 * (y 0).val = (y 0).val; omega
  | ⟨1, _⟩ => show win0_5.index t (1 : Fin 2) * 384 + 1 * (y 1).val = (y 1).val; omega

theorem blk6 (c : Dev nD) (t : Fin cfg0.N) : (iblk m c 6 t : S1x384.Idx → EReal) = V m c main_v2 := by
  funext y
  show V m c main_v2 (((cfg0.win 6).blk t).view.emb y) = V m c main_v2 y
  congr 1
  have hf := idx_facts t
  funext a; apply Fin.ext
  match a with
  | ⟨0, _⟩ => show win0_6.index t (0 : Fin 2) * 1 + 1 * (y 0).val = (y 0).val; omega
  | ⟨1, _⟩ => show win0_6.index t (1 : Fin 2) * 384 + 1 * (y 1).val = (y 1).val; omega

theorem blk7 (c : Dev nD) (t : Fin cfg0.N) : (iblk m c 7 t : S128x256.Idx → EReal) = V m c main_v3 := by
  funext y
  show V m c main_v3 (((cfg0.win 7).blk t).view.emb y) = V m c main_v3 y
  congr 1
  have hf := idx_facts t
  funext a; apply Fin.ext
  match a with
  | ⟨0, _⟩ => show win0_7.index t (0 : Fin 2) * 128 + 1 * (y 0).val = (y 0).val; omega
  | ⟨1, _⟩ => show win0_7.index t (1 : Fin 2) * 256 + 1 * (y 1).val = (y 1).val; omega

theorem blk8 (c : Dev nD) (t : Fin cfg0.N) : (iblk m c 8 t : S1x256.Idx → EReal) = V m c main_v5 := by
  funext y
  show V m c main_v5 (((cfg0.win 8).blk t).view.emb y) = V m c main_v5 y
  congr 1
  have hf := idx_facts t
  funext a; apply Fin.ext
  match a with
  | ⟨0, _⟩ => show win0_8.index t (0 : Fin 2) * 1 + 1 * (y 0).val = (y 0).val; omega
  | ⟨1, _⟩ => show win0_8.index t (1 : Fin 2) * 256 + 1 * (y 1).val = (y 1).val; omega

theorem blk9 (c : Dev nD) (t : Fin cfg0.N) : (iblk m c 9 t : S128x128.Idx → EReal) = V m c main_arg15 := by
  funext y
  show V m c main_arg15 (((cfg0.win 9).blk t).view.emb y) = V m c main_arg15 y
  congr 1
  have hf := idx_facts t
  funext a; apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk10 (c : Dev nD) (t : Fin cfg0.N) : (iblk m c 10 t : S1x128.Idx → EReal) = V m c main_v7 := by
  funext y
  show V m c main_v7 (((cfg0.win 10).blk t).view.emb y) = V m c main_v7 y
  congr 1
  have hf := idx_facts t
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## What a point writes back, and the array after the run -/

/-- The weights the body reads out of its eight weight blocks are the layer's weights. -/
theorem weights_eq (c : Dev nD) (t : Fin cfg0.N) :
    Gru.kparams (iblk m c 3 t) (iblk m c 4 t) (iblk m c 5 t) (iblk m c 6 t) (iblk m c 7 t) (iblk m c 8 t) (iblk m c 9 t) (iblk m c 10 t)
      = (Gru.params (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  have e : Gru.kparams (iblk m c 3 t) (iblk m c 4 t) (iblk m c 5 t) (iblk m c 6 t) (iblk m c 7 t) (iblk m c 8 t) (iblk m c 9 t) (iblk m c 10 t)
      = Gru.kparams (V m c main_arg3) (V m c main_v6) (V m c main_v0) (V m c main_v2) (V m c main_v3) (V m c main_v5) (V m c main_arg15) (V m c main_v7) := by
    rw [blk3 m c t, blk4 m c t, blk5 m c t, blk6 m c t, blk7 m c t, blk8 m c t, blk9 m c t, blk10 m c t]
  exact e.trans (KHost.kparams_V m c)

/-- Where point t's output block lies: entry (g, r, k) of the block is entry (2t + g, r, k) of the array. -/
theorem emb11 (t : Fin cfg0.N) (g : Fin 2) (r : Fin 512) (k : Fin 128) :
    ((cfg0.win 11).blk t).view.emb (ix3 g r k) = ix3 (gidx t g) r k := by
  have hf := idx_facts t
  funext a; apply Fin.ext
  match a with
  | ⟨0, _⟩ => show win0_11.index t (0 : Fin 3) * 2 + 1 * g.val = 2 * t.val + g.val; omega
  | ⟨1, _⟩ => show win0_11.index t (1 : Fin 3) * 512 + 1 * r.val = r.val; omega
  | ⟨2, _⟩ => show win0_11.index t (2 : Fin 3) * 128 + 1 * k.val = k.val; omega

/-- WHAT POINT t WRITES BACK is block t of the whole-batch layer of the argument arrays: the body's result on
    graph g of the point's blocks is the one-graph layer on graph 2t + g of the arrays. -/
theorem flushed11_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  refine funext fun (j : S2x512x128.Idx) => ?_
  obtain ⟨g, r, k, rfl⟩ : ∃ (g : Fin 2) (r : Fin 512) (k : Fin 128), j = ix3 g r k := ⟨j 0, j 1, j 2, eq_ix3 j⟩
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 g r k) = G m c (((cfg0.win 11).blk t).view.emb (ix3 g r k))
  rw [emb11 t g r k]
  refine (KValue.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) g r k).trans ?_
  rw [weights_eq m c t]
  show _ = Gru.outK _ (Gru.gX (m ((c : Thread nD τ).loc main_arg0)) (gidx t g)) (Gru.gS (m ((c : Thread nD τ).loc main_arg1)) (gidx t g)) (Gru.gM (m ((c : Thread nD τ).loc main_arg2)) (gidx t g)) r k
  have hX : (fun i k => iblk m c 0 t (ix3 g i k)) = Gru.gX (m ((c : Thread nD τ).loc main_arg0)) (gidx t g) := by
    funext i k; exact blk0 m c t g i k
  have hS : (fun i k => iblk m c 1 t (ix3 g i k)) = Gru.gS (m ((c : Thread nD τ).loc main_arg1)) (gidx t g) := by
    funext i k; exact blk1 m c t g i k
  have hM : (fun i => iblk m c 2 t (ix3 g i 0)) = Gru.gM (m ((c : Thread nD τ).loc main_arg2)) (gidx t g) := by
    funext i; exact blk2 m c t g i 0
  rw [hX, hS, hM]

/-- An index of the array is in point t's block iff each coordinate is in the block's range on its axis. -/
theorem mem_blk11 (t : Fin cfg0.N) (i : S32x512x128.Idx) :
    i ∈ ((cfg0.win 11).blk t).view.set ↔ ∀ a : Fin 3, win0_11.index t a * S2x512x128.size a ≤ (i a).val ∧ (i a).val < win0_11.index t a * S2x512x128.size a + S2x512x128.size a := by
  show i ∈ ((View.whole main_v8).slice (win0_11.rect t)).set ↔ _
  rw [View.set_slice_whole, Rect.mem_set_unit]
  exact Iff.rfl

/-- Every index of the array lies in some point's block: graph b is written by point b / 2. -/
theorem cover11 (i : S32x512x128.Idx) :
    ∃ t : Fin cfg0.N, (cfg0.win 11).flush t = true ∧ i ∈ ((cfg0.win 11).blk t).view.set := by
  have h0 : (i 0).val < 32 := (i 0).isLt
  have h1 : (i 1).val < 512 := (i 1).isLt
  have h2 : (i 2).val < 128 := (i 2).isLt
  let t : Fin cfg0.N := ⟨(i 0).val / 2, lt_of_lt_of_eq (by omega : (i 0).val / 2 < 16) N_0.symm⟩
  have hf := idx_facts t
  have ht : t.val = (i 0).val / 2 := rfl
  refine ⟨t, flush0_11 t, ?_⟩
  rw [mem_blk11]
  intro a
  match a with
  | ⟨0, _⟩ => show win0_11.index t (0 : Fin 3) * 2 ≤ (i 0).val ∧ (i 0).val < win0_11.index t (0 : Fin 3) * 2 + 2; omega
  | ⟨1, _⟩ => show win0_11.index t (1 : Fin 3) * 512 ≤ (i 1).val ∧ (i 1).val < win0_11.index t (1 : Fin 3) * 512 + 512; omega
  | ⟨2, _⟩ => show win0_11.index t (2 : Fin 3) * 128 ≤ (i 2).val ∧ (i 2).val < win0_11.index t (2 : Fin 3) * 128 + 128; omega

/-- THE ARRAY after the run is the whole-batch layer of the argument arrays. -/
theorem final11 (c : Dev nD) : (dats m 0 c).arrAt 11 cfg0.N = G m c :=
  (dats m 0 c).arrAt_eq_of_cover 11 (G m c) (fun t _ => flushed11_eq m c t) cover11

/-! ## The run, read -/

/-- The run of the idealized kernel: it terminates, the result array holds the whole-batch layer of the
    arguments, and the arguments are unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨((h c).1 11).trans (final11 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).1 9).trans (((dats m 0 c).arrAt_in 9 rfl _).trans ((A_eq m c 9).trans (V_main_arg15 m c))),
      ((h c).2 main_arg16 (Pipeline.mem_restRefs_of main_arg16 (by decide) (by decide))).trans (V_main_arg16 m c)⟩)
    (run_main m ρ)

end Cert.KernelIdeal.KRun

end
-- ==== Proof.RefValue.lean ====
/-
  The reference's result, read index by index at the ideal instance.

  The reference program is the encoder followed by two propagation steps, and the two steps are the same
  operations applied first to the encoder's result and then to the first step's result. So the program is read
  here as  step (step (encoder))  for one array-level function `stepA`, built from five smaller ones: the
  aggregation S·O (`agg`), a linear map Y·W + b with the bias spread along rows (`lin`), the logistic function
  spelt 1 / (1 + e⁻ˢ) (`sig`), a gate σ ((A·W0 + b0) + (O·W1 + b1)) (`gateA`), the masked and clamped candidate
  (`candA`) and the blend hh·z + O·(1 − z) (`blendA`). Each is read at an index (b, r, c); a lemma for an
  operation that consumes an earlier array takes what is known of that array on graph b as a hypothesis, so the
  same lemmas serve both steps.
-/
import proofs.«126110_g44787918963399_cont_sun_c4_384_8_alg».proof.Defs
import proofs.«126110_g44787918963399_cont_sun_c4_384_8_alg».proof.Proof.Gen.ReferenceIdeal.Run
import proofs.«126110_g44787918963399_cont_sun_c4_384_8_alg».proof.Proof.Gen.ReferenceIdeal.Read
import proofs.«126110_g44787918963399_cont_sun_c4_384_8_alg».proof.Proof.Whole
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-! ## The program's stages as functions of arrays -/

section Stages

variable {F : FTy → Type} [FloatOps F]

/-- The aggregation: on every graph, the support matrix times the state. -/
def agg (S : (⟨S32x512x512, .f32⟩ : BufTy).Contents (Elt F)) (O : (⟨S32x512x128, .f32⟩ : BufTy).Contents (Elt F)) : (⟨S32x512x128, .f32⟩ : BufTy).Contents (Elt F) :=
  Host.dotGeneral dot_S32x512x512_S32x512x128_S32x512x128_2_1_1_2_0_0 none S O

/-- A linear map on every row: Y·W + b. -/
def lin (Y : (⟨S32x512x128, .f32⟩ : BufTy).Contents (Elt F)) (W : (⟨S128x128, .f32⟩ : BufTy).Contents (Elt F)) (bv : (⟨S128, .f32⟩ : BufTy).Contents (Elt F)) : (⟨S32x512x128, .f32⟩ : BufTy).Contents (Elt F) :=
  addf (Host.dotGeneral dot_S32x512x128_S128x128_S32x512x128_2_0_01_1_n_n none Y W)
    (broadcastInDim S32x512x128 ![0, 1, 2] bcast_S1x1x128_S32x512x128_0_1_2 (broadcastInDim S1x1x128 ![2] bcast_S128_S1x1x128_2 bv))

/-- The array of ones. -/
def ones : (⟨S32x512x128, .f32⟩ : BufTy).Contents (Elt F) :=
  broadcastInDim S32x512x128 ![] bcast_S_S32x512x128 (constant (F := F) S_ .f32 0x3F800000#32)

/-- The array of zeros. -/
def zeros : (⟨S32x512x128, .f32⟩ : BufTy).Contents (Elt F) :=
  broadcastInDim S32x512x128 ![] bcast_S_S32x512x128 (constant (F := F) S_ .f32 0x00000000#32)

/-- The logistic function, spelt 1 / (1 + e⁻ˢ). -/
def sig (s : (⟨S32x512x128, .f32⟩ : BufTy).Contents (Elt F)) : (⟨S32x512x128, .f32⟩ : BufTy).Contents (Elt F) :=
  Host.divf (ones (F := F)) (addf (ones (F := F)) (Host.exp (Host.negf s)))

/-- A gate: σ ((A·W0 + b0) + (O·W1 + b1)). -/
def gateA (A O : (⟨S32x512x128, .f32⟩ : BufTy).Contents (Elt F)) (W0 : (⟨S128x128, .f32⟩ : BufTy).Contents (Elt F)) (b0 : (⟨S128, .f32⟩ : BufTy).Contents (Elt F)) (W1 : (⟨S128x128, .f32⟩ : BufTy).Contents (Elt F)) (b1 : (⟨S128, .f32⟩ : BufTy).Contents (Elt F)) :
    (⟨S32x512x128, .f32⟩ : BufTy).Contents (Elt F) :=
  sig (addf (lin A W0 b0) (lin O W1 b1))

/-- The row mask spread along the columns. -/
def maskA (M : (⟨S32x512x1, .f32⟩ : BufTy).Contents (Elt F)) : (⟨S32x512x128, .f32⟩ : BufTy).Contents (Elt F) :=
  broadcastInDim S32x512x128 ![0, 1, 2] bcast_S32x512x1_S32x512x128_0_1_2 M

/-- The candidate: max (M ⊙ ((A·W0 + b0) + ((R ⊙ O)·W1 + b1)), 0). -/
def candA (M : (⟨S32x512x1, .f32⟩ : BufTy).Contents (Elt F)) (A O R : (⟨S32x512x128, .f32⟩ : BufTy).Contents (Elt F)) (W0 : (⟨S128x128, .f32⟩ : BufTy).Contents (Elt F)) (b0 : (⟨S128, .f32⟩ : BufTy).Contents (Elt F)) (W1 : (⟨S128x128, .f32⟩ : BufTy).Contents (Elt F)) (b1 : (⟨S128, .f32⟩ : BufTy).Contents (Elt F)) :
    (⟨S32x512x128, .f32⟩ : BufTy).Contents (Elt F) :=
  maximumf (mulf (maskA M) (addf (lin A W0 b0) (lin (mulf R O) W1 b1))) (zeros (F := F))

/-- The blend: H ⊙ Z + O ⊙ (1 − Z). -/
def blendA (H Z O : (⟨S32x512x128, .f32⟩ : BufTy).Contents (Elt F)) : (⟨S32x512x128, .f32⟩ : BufTy).Contents (Elt F) :=
  addf (mulf H Z) (mulf O (subf (ones (F := F)) Z))

/-- One propagation step on the whole batch. -/
def stepA (S : (⟨S32x512x512, .f32⟩ : BufTy).Contents (Elt F)) (M : (⟨S32x512x1, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F))
    (O : (⟨S32x512x128, .f32⟩ : BufTy).Contents (Elt F)) : (⟨S32x512x128, .f32⟩ : BufTy).Contents (Elt F) :=
  blendA (candA M (agg S O) O (gateA (agg S O) O x9 x10 x11 x12) x13 x14 x15 x16) (gateA (agg S O) O x5 x6 x7 x8) O

/-- The encoder on the whole batch: M ⊙ max (X·W + b, 0). -/
def encA (X : (⟨S32x512x128, .f32⟩ : BufTy).Contents (Elt F)) (M : (⟨S32x512x1, .f32⟩ : BufTy).Contents (Elt F)) (W : (⟨S128x128, .f32⟩ : BufTy).Contents (Elt F)) (bv : (⟨S128, .f32⟩ : BufTy).Contents (Elt F)) : (⟨S32x512x128, .f32⟩ : BufTy).Contents (Elt F) :=
  mulf (maskA M) (maximumf (lin X W bv) (zeros (F := F)))

/-- The program's seventh stage is the encoder. -/
theorem v6_eq (x0 : (⟨S32x512x128, .f32⟩ : BufTy).Contents (Elt F)) (x2 : (⟨S32x512x1, .f32⟩ : BufTy).Contents (Elt F)) (x3 : (⟨S128x128, .f32⟩ : BufTy).Contents (Elt F)) (x4 : (⟨S128, .f32⟩ : BufTy).Contents (Elt F)) :
    val_main_v6 (F := F) x0 x2 x3 x4 = encA x0 x2 x3 x4 := rfl

/-- The first step's result is the step of the encoder's. -/
theorem v55_eq (x0 : (⟨S32x512x128, .f32⟩ : BufTy).Contents (Elt F)) (x1 : (⟨S32x512x512, .f32⟩ : BufTy).Contents (Elt F)) (x2 : (⟨S32x512x1, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) :
    val_main_v55 (F := F) x0 x1 x2 x3 x4 x5 x6 x7 x8 x9 x10 x11 x12 x13 x14 x15 x16 = stepA x1 x2 x5 x6 x7 x8 x9 x10 x11 x12 x13 x14 x15 x16 (val_main_v6 (F := F) x0 x2 x3 x4) := rfl

/-- The program's result is the step of the first step's. -/
theorem v104_eq (x0 : (⟨S32x512x128, .f32⟩ : BufTy).Contents (Elt F)) (x1 : (⟨S32x512x512, .f32⟩ : BufTy).Contents (Elt F)) (x2 : (⟨S32x512x1, .f32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128x128, .f32⟩ : BufTy).Contents (Elt F)) (x14 : (⟨S128, .f32⟩ : BufTy).Contents (Elt F)) (x15 : (⟨S128x128, .f32⟩ : BufTy).Contents (Elt F)) (x16 : (⟨S128, .f32⟩ : BufTy).Contents (Elt F)) :
    val_main_v104 (F := F) x0 x1 x2 x3 x4 x5 x6 x7 x8 x9 x10 x11 x12 x13 x14 x15 x16 = stepA x1 x2 x5 x6 x7 x8 x9 x10 x11 x12 x13 x14 x15 x16 (val_main_v55 (F := F) x0 x1 x2 x3 x4 x5 x6 x7 x8 x9 x10 x11 x12 x13 x14 x15 x16) := rfl

/-- A linear map is a sum of its two named stages. -/
theorem lin_eq (Y : (⟨S32x512x128, .f32⟩ : BufTy).Contents (Elt F)) (W : (⟨S128x128, .f32⟩ : BufTy).Contents (Elt F)) (bv : (⟨S128, .f32⟩ : BufTy).Contents (Elt F)) :
    lin Y W bv = addf (val_main_v0 (F := F) Y W) (val_main_v2 (F := F) bv) := rfl

end Stages

/-! ## Indices by coordinates -/

theorem aggL_eq (b : Fin 32) (r : Fin 512) (c : Fin 128) (k : Fin 512) : lidx_main_v7 (ix3 b r c) k = ix3 b r k :=
  funext fun a => Fin.ext (by match a with | ⟨0, _⟩ => rfl | ⟨1, _⟩ => rfl | ⟨2, _⟩ => rfl)

theorem aggR_eq (b : Fin 32) (r : Fin 512) (c : Fin 128) (k : Fin 512) : ridx_main_v7 (ix3 b r c) k = ix3 b k c :=
  funext fun a => Fin.ext (by match a with | ⟨0, _⟩ => rfl | ⟨1, _⟩ => rfl | ⟨2, _⟩ => rfl)

theorem linL_eq (b : Fin 32) (r : Fin 512) (c : Fin 128) (k : Fin 128) : lidx_main_v0 (ix3 b r c) k = ix3 b r k :=
  funext fun a => Fin.ext (by match a with | ⟨0, _⟩ => rfl | ⟨1, _⟩ => rfl | ⟨2, _⟩ => rfl)

theorem linR_eq (b : Fin 32) (r : Fin 512) (c : Fin 128) (k : Fin 128) : ridx_main_v0 (ix3 b r c) k = ix2 k c :=
  funext fun a => Fin.ext (by match a with | ⟨0, _⟩ => rfl | ⟨1, _⟩ => rfl)

theorem bias_eq (b : Fin 32) (r : Fin 512) (c : Fin 128) : idx_main_v1 (idx_main_v2 (ix3 b r c)) = ix1 c :=
  funext fun a => Fin.ext (by match a with | ⟨0, _⟩ => rfl)

theorem mask_eq (b : Fin 32) (r : Fin 512) (c : Fin 128) : idx_main_v5 (ix3 b r c) = ix3 b r 0 :=
  funext fun a => Fin.ext (by match a with | ⟨0, _⟩ => rfl | ⟨1, _⟩ => rfl | ⟨2, _⟩ => rfl)

/-! ## The stages at an index, over the extended reals -/

/-- The word 0x3F800000 is the number one. -/
theorem one_f32 : Ideal.ofBits .f32 0x3F800000#32 = 1 := by
  simp [Ideal.ofBits, Ideal.ieee, -EReal.coe_mul]; norm_num

theorem ones_apply (i : S32x512x128.Idx) : ones (F := Ideal) i = 1 := by
  have h : ones (F := Ideal) = val_main_v19 (F := Ideal) := rfl
  rw [h, val_main_v19_apply, val_main_cst_apply]
  exact one_f32

theorem zeros_apply (i : S32x512x128.Idx) : zeros (F := Ideal) i = 0 := by
  have h : zeros (F := Ideal) = val_main_call0_v0 (F := Ideal) := rfl
  rw [h, val_main_call0_v0_apply, val_main_call0_cst_apply]
  exact Ideal.ofBits_zero_f32

theorem mask_apply (M : (⟨S32x512x1, .f32⟩ : BufTy).Contents (Elt Ideal)) (b : Fin 32) (r : Fin 512) (c : Fin 128) :
    maskA (F := Ideal) M (ix3 b r c) = Gru.gM M b r := by
  have h : maskA (F := Ideal) M = val_main_v5 (F := Ideal) M := rfl
  rw [h, val_main_v5_apply, mask_eq]
  rfl

/-- The aggregation at any index: the sum over the contracted axis. -/
theorem agg_at (S : (⟨S32x512x512, .f32⟩ : BufTy).Contents (Elt Ideal)) (O : (⟨S32x512x128, .f32⟩ : BufTy).Contents (Elt Ideal)) (i : S32x512x128.Idx) :
    agg (F := Ideal) S O i = ∑ k : Fin 512, S (lidx_main_v7 i k) * O (ridx_main_v7 i k) := by
  unfold agg
  simp only [Host.dotGeneral]
  rw [Ideal.dotGeneral_apply, ← Equiv.sum_comp (ValueIdx.contrEquiv1 dot_S32x512x512_S32x512x128_S32x512x128_2_1_1_2_0_0 512 rfl rfl).symm]
  refine Finset.sum_congr rfl fun k _ => ?_
  have hk := ValueIdx.contrEquiv1_symm_val dot_S32x512x512_S32x512x128_S32x512x128_2_1_1_2_0_0 512 rfl rfl k
  have el : dot_S32x512x512_S32x512x128_S32x512x128_2_1_1_2_0_0.lhsIdx i ((ValueIdx.contrEquiv1 dot_S32x512x512_S32x512x128_S32x512x128_2_1_1_2_0_0 512 rfl rfl).symm k) = lidx_main_v7 i k := funext fun a => Fin.ext (by
    match a with
    | ⟨0, _⟩ => exact lhs_main_v7_0 _ _
    | ⟨1, _⟩ => exact lhs_main_v7_1 _ _
    | ⟨2, _⟩ => exact (lhs_main_v7_2 _ _).trans hk)
  have er : dot_S32x512x512_S32x512x128_S32x512x128_2_1_1_2_0_0.rhsIdx i ((ValueIdx.contrEquiv1 dot_S32x512x512_S32x512x128_S32x512x128_2_1_1_2_0_0 512 rfl rfl).symm k) = ridx_main_v7 i k := funext fun a => Fin.ext (by
    match a with
    | ⟨0, _⟩ => exact rhs_main_v7_0 _ _
    | ⟨1, _⟩ => exact (rhs_main_v7_1 _ _).trans hk
    | ⟨2, _⟩ => exact rhs_main_v7_2 _ _)
  rw [el, er]

/-- The aggregation on graph b is the matrix product of b's support matrix with the state on b. -/
theorem agg_graph (S : (⟨S32x512x512, .f32⟩ : BufTy).Contents (Elt Ideal)) (O : (⟨S32x512x128, .f32⟩ : BufTy).Contents (Elt Ideal)) (b : Fin 32) (Om : Gru.Mat 512 128)
    (hO : ∀ r c, O (ix3 b r c) = Om r c) (r : Fin 512) (c : Fin 128) :
    agg (F := Ideal) S O (ix3 b r c) = Gru.mm (Gru.gS S b) Om r c := by
  rw [agg_at]
  simp only [aggL_eq, aggR_eq, hO]
  rfl

/-- A linear map on graph b: the matrix product with the weight matrix, plus the bias. -/
theorem lin_graph (Y : (⟨S32x512x128, .f32⟩ : BufTy).Contents (Elt Ideal)) (W : (⟨S128x128, .f32⟩ : BufTy).Contents (Elt Ideal)) (bv : (⟨S128, .f32⟩ : BufTy).Contents (Elt Ideal)) (b : Fin 32) (Ym : Gru.Mat 512 128)
    (hY : ∀ r k, Y (ix3 b r k) = Ym r k) (r : Fin 512) (c : Fin 128) :
    lin (F := Ideal) Y W bv (ix3 b r c) = Gru.mm Ym (Gru.matOf W) r c + Gru.vecOf bv c := by
  rw [lin_eq, addf_apply, val_main_v0_apply, val_main_v2_apply, val_main_v1_apply, bias_eq]
  simp only [linL_eq, linR_eq, hY]
  rfl

/-- 1 / (1 + e⁻ˢ) is the logistic function. -/
theorem sig_apply (s : (⟨S32x512x128, .f32⟩ : BufTy).Contents (Elt Ideal)) (i : S32x512x128.Idx) : sig (F := Ideal) s i = Ideal.logistic (s i) := by
  show Ideal.div (ones (F := Ideal) i) (ones (F := Ideal) i + Ideal.exp (-(s i))) = Ideal.logistic (s i)
  rw [ones_apply]
  rfl

/-- A gate on graph b. -/
theorem gate_graph (A O : (⟨S32x512x128, .f32⟩ : BufTy).Contents (Elt Ideal)) (W0 : (⟨S128x128, .f32⟩ : BufTy).Contents (Elt Ideal)) (b0 : (⟨S128, .f32⟩ : BufTy).Contents (Elt Ideal)) (W1 : (⟨S128x128, .f32⟩ : BufTy).Contents (Elt Ideal)) (b1 : (⟨S128, .f32⟩ : BufTy).Contents (Elt Ideal))
    (b : Fin 32) (Am Om : Gru.Mat 512 128) (hA : ∀ r c, A (ix3 b r c) = Am r c) (hO : ∀ r c, O (ix3 b r c) = Om r c)
    (r : Fin 512) (c : Fin 128) :
    gateA (F := Ideal) A O W0 b0 W1 b1 (ix3 b r c)
      = Gru.gate Am Om (Gru.matOf W0) (Gru.vecOf b0) (Gru.matOf W1) (Gru.vecOf b1) r c := by
  unfold gateA
  rw [sig_apply, addf_apply, lin_graph A W0 b0 b Am hA, lin_graph O W1 b1 b Om hO]
  rfl

/-- The candidate on graph b. -/
theorem cand_graph (M : (⟨S32x512x1, .f32⟩ : BufTy).Contents (Elt Ideal)) (A O R : (⟨S32x512x128, .f32⟩ : BufTy).Contents (Elt Ideal)) (W0 : (⟨S128x128, .f32⟩ : BufTy).Contents (Elt Ideal)) (b0 : (⟨S128, .f32⟩ : BufTy).Contents (Elt Ideal)) (W1 : (⟨S128x128, .f32⟩ : BufTy).Contents (Elt Ideal)) (b1 : (⟨S128, .f32⟩ : BufTy).Contents (Elt Ideal))
    (b : Fin 32) (Am Om Rm : Gru.Mat 512 128) (hA : ∀ r c, A (ix3 b r c) = Am r c) (hO : ∀ r c, O (ix3 b r c) = Om r c)
    (hR : ∀ r c, R (ix3 b r c) = Rm r c) (r : Fin 512) (c : Fin 128) :
    candA (F := Ideal) M A O R W0 b0 W1 b1 (ix3 b r c)
      = max (Gru.gM M b r * ((Gru.mm Am (Gru.matOf W0) r c + Gru.vecOf b0 c)
          + (Gru.mm (fun i l => Rm i l * Om i l) (Gru.matOf W1) r c + Gru.vecOf b1 c))) 0 := by
  unfold candA
  rw [maximumf_apply, mulf_apply, addf_apply, zeros_apply, mask_apply, lin_graph A W0 b0 b Am hA,
    lin_graph (mulf (F := Ideal) (s := S32x512x128) (φ := .f32) R O) W1 b1 b (fun i l => Rm i l * Om i l)
      (fun i l => by rw [mulf_apply, hR, hO])]

/-- The blend at an index. -/
theorem blend_apply (H Z O : (⟨S32x512x128, .f32⟩ : BufTy).Contents (Elt Ideal)) (i : S32x512x128.Idx) :
    blendA (F := Ideal) H Z O i = H i * Z i + O i * (1 - Z i) := by
  unfold blendA
  rw [addf_apply, mulf_apply, mulf_apply, subf_apply, ones_apply]

/-- The encoder on graph b. -/
theorem enc_graph (X : (⟨S32x512x128, .f32⟩ : BufTy).Contents (Elt Ideal)) (M : (⟨S32x512x1, .f32⟩ : BufTy).Contents (Elt Ideal)) (W : (⟨S128x128, .f32⟩ : BufTy).Contents (Elt Ideal)) (bv : (⟨S128, .f32⟩ : BufTy).Contents (Elt Ideal)) (b : Fin 32)
    (r : Fin 512) (c : Fin 128) :
    encA (F := Ideal) X M W bv (ix3 b r c) = Gru.enc (Gru.gX X b) (Gru.gM M b) (Gru.matOf W) (Gru.vecOf bv) r c := by
  unfold encA
  rw [mulf_apply, maximumf_apply, zeros_apply, mask_apply, lin_graph X W bv b (Gru.gX X b) (fun _ _ => rfl)]
  rfl

/-- One propagation step on graph b: if the state on b is the matrix Om, the step's result on b is the
    one-graph step of Om. -/
theorem step_graph (S : (⟨S32x512x512, .f32⟩ : BufTy).Contents (Elt Ideal)) (M : (⟨S32x512x1, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal))
    (O : (⟨S32x512x128, .f32⟩ : BufTy).Contents (Elt Ideal)) (b : Fin 32) (Om : Gru.Mat 512 128) (hO : ∀ r c, O (ix3 b r c) = Om r c)
    (r : Fin 512) (c : Fin 128) :
    stepA (F := Ideal) S M x5 x6 x7 x8 x9 x10 x11 x12 x13 x14 x15 x16 O (ix3 b r c)
      = Gru.stepR (Gru.params x3 x4 x5 x6 x7 x8 x9 x10 x11 x12 x13 x14 x15 x16) (Gru.gS S b) (Gru.gM M b) Om r c := by
  have hA : ∀ r c, agg (F := Ideal) S O (ix3 b r c) = Gru.mm (Gru.gS S b) Om r c := agg_graph S O b Om hO
  have hR := gate_graph (agg S O) O x9 x10 x11 x12 b _ _ hA hO
  unfold stepA
  rw [blend_apply, cand_graph M (agg S O) O (gateA (agg S O) O x9 x10 x11 x12) x13 x14 x15 x16 b _ _ _ hA hO hR,
    gate_graph (agg S O) O x5 x6 x7 x8 b _ _ hA hO, hO]
  rfl

/-! ## The whole program -/

/-- The reference's result at (b, r, c) is the one-graph layer's entry (r, c) on graph b: the encoder, then
    the same step twice. -/
theorem ref_apply (x0 : (⟨S32x512x128, .f32⟩ : BufTy).Contents (Elt Ideal)) (x1 : (⟨S32x512x512, .f32⟩ : BufTy).Contents (Elt Ideal)) (x2 : (⟨S32x512x1, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal))
    (b : Fin 32) (r : Fin 512) (c : Fin 128) :
    val_main_v104 (F := Ideal) x0 x1 x2 x3 x4 x5 x6 x7 x8 x9 x10 x11 x12 x13 x14 x15 x16 (ix3 b r c)
      = Gru.outR (Gru.params x3 x4 x5 x6 x7 x8 x9 x10 x11 x12 x13 x14 x15 x16) (Gru.gX x0 b) (Gru.gS x1 b) (Gru.gM x2 b) r c := by
  have h0 : ∀ r c, val_main_v6 (F := Ideal) x0 x2 x3 x4 (ix3 b r c)
      = Gru.enc (Gru.gX x0 b) (Gru.gM x2 b) (Gru.matOf x3) (Gru.vecOf x4) r c := fun r c => by
    rw [v6_eq]
    exact enc_graph x0 x2 x3 x4 b r c
  have h1 : ∀ r c, val_main_v55 (F := Ideal) x0 x1 x2 x3 x4 x5 x6 x7 x8 x9 x10 x11 x12 x13 x14 x15 x16 (ix3 b r c)
      = Gru.stepR (Gru.params x3 x4 x5 x6 x7 x8 x9 x10 x11 x12 x13 x14 x15 x16) (Gru.gS x1 b) (Gru.gM x2 b)
          (Gru.enc (Gru.gX x0 b) (Gru.gM x2 b) (Gru.matOf x3) (Gru.vecOf x4)) r c := fun r c => by
    rw [v55_eq]
    exact step_graph x1 x2 x3 x4 x5 x6 x7 x8 x9 x10 x11 x12 x13 x14 x15 x16 _ b _ h0 r c
  rw [v104_eq]
  exact step_graph x1 x2 x3 x4 x5 x6 x7 x8 x9 x10 x11 x12 x13 x14 x15 x16 _ b _ h1 r c

end Cert.ReferenceIdeal.RefValue

end
-- ==== Proof.Finite.lean ====
/-
  The precondition, read back: every input entry is a real number.

  The printed predicate is, for each of the seventeen float arrays a, the statement that every entry x of a has
  |x| < +∞ (|x| spelled max x (−x), +∞ the float word 0x7F800000, "every" a reduction by "and" from 1 over all axes),
  and the conjunction of the seventeen. A conjunction of one-bit words is 1 exactly when each is; a reduction by
  "and" over all axes that is 1 met a 1 at every index; and an extended real x with max x (−x) < ⊤ is neither ⊤ nor
  ⊥ (at ⊥ the negation is ⊤), so it is a real number.
-/
import proofs.«126110_g44787918963399_cont_sun_c4_384_8_alg».proof.Pre_finite_inputs
import proofs.«126110_g44787918963399_cont_sun_c4_384_8_alg».proof.Proof.Gen.Pre_finite_inputs
import proofs.«126110_g44787918963399_cont_sun_c4_384_8_alg».proof.Proof.Spec
import Idealize.ShloMosaic.Lib.ReduceAll
import Idealize.ShloMosaic.Lib.ValueIdx

namespace Cert.Pre_finite_inputs.Real

open Idealize.ShloMosaic Cert.Pre_finite_inputs Cert.Pre_finite_inputs.Gen

/-- The shape of rank 0 has one index. -/
instance subsingleton_S_ : Subsingleton S_.Idx := ⟨fun a b => funext fun d => d.elim0⟩

/-- The float word 0x7F800000 denotes +∞. -/
theorem inf_word : Ideal.ofBits .f32 0x7F800000#32 = (⊤ : EReal) := by
  simp [Ideal.ofBits, Ideal.ieee]

/-- An extended real whose absolute value max x (−x) is below ⊤ is a real number. -/
theorem isR_of_abs_lt_top (x : EReal) (h : max x (-x) < ⊤) : Gru.IsR x := by
  induction x using EReal.rec with
  | bot => simp at h
  | coe r => exact ⟨r, rfl⟩
  | top => simp at h

/-- A one-bit word made from a truth value is 1 exactly when the value is true. -/
theorem ofBool_eq_one (b : Bool) : BitVec.ofBool b = 1#1 ↔ b = true := by cases b <;> decide

/-- One array: if "every entry has |x| < +∞" came out 1, every entry is a real number. -/
theorem isR_of_all {s : Shape} {axes : List (Fin s.rank)} (hb : S_.BroadcastsInDim s (![] : Fin 0 → Fin s.rank))
    (hr : s.ReducesTo axes S_) (hu : 0 < S_.numel) (a : FVec Ideal s .f32) (init : IVec S_ 1)
    (e : Host.reduce IntOp.andi
        (cmpf .olt (Host.absf a) (broadcastInDim s ![] hb (constant (F := Ideal) S_ .f32 0x7F800000#32))) init hr hu
        ValueIdx.ix0 = 1#1)
    (i : s.Idx) : Gru.IsR (a i) := by
  have h1 := Host.reduce_andi_all _ init hr hu ValueIdx.ix0 e i
  have h2 : Ideal.cmp .olt (max (a i) (-(a i))) (Ideal.ofBits .f32 0x7F800000#32) = 1#1 := h1
  rw [inf_word, Ideal.cmp, ofBool_eq_one, decide_eq_true_eq] at h2
  exact isR_of_abs_lt_top _ h2

/-- The precondition holds only of real inputs. -/
theorem real_of_fn (a0 : FVec Ideal S32x512x128 .f32) (a1 : FVec Ideal S32x512x512 .f32) (a2 : FVec Ideal S32x512x1 .f32) (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32) (a15 : FVec Ideal S128x128 .f32) (a16 : FVec Ideal S128 .f32)
    (h : Cert.Pre_finite_inputs.fn (F := Ideal) a0 a1 a2 a3 a4 a5 a6 a7 a8 a9 a10 a11 a12 a13 a14 a15 a16 = fun _ => 1#1) :
    (∀ i, Gru.IsR (a0 i)) ∧ (∀ i, Gru.IsR (a1 i)) ∧ (∀ i, Gru.IsR (a2 i)) ∧ (∀ i, Gru.IsR (a3 i)) ∧ (∀ i, Gru.IsR (a4 i)) ∧ (∀ i, Gru.IsR (a5 i)) ∧ (∀ i, Gru.IsR (a6 i)) ∧ (∀ i, Gru.IsR (a7 i)) ∧ (∀ i, Gru.IsR (a8 i)) ∧ (∀ i, Gru.IsR (a9 i)) ∧ (∀ i, Gru.IsR (a10 i)) ∧ (∀ i, Gru.IsR (a11 i)) ∧ (∀ i, Gru.IsR (a12 i)) ∧ (∀ i, Gru.IsR (a13 i)) ∧ (∀ i, Gru.IsR (a14 i)) ∧ (∀ i, Gru.IsR (a15 i)) ∧ (∀ i, Gru.IsR (a16 i)) := by
  have hx := congrFun h ValueIdx.ix0
  dsimp only [fn, fn_part1, fn_part2, fn_part3, fn_part4, andi] at hx
  simp only [IntOp.andi_eq_one] at hx
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := hx
  exact ⟨fun i => isR_of_all _ _ _ a0 _ h0 i,
    fun i => isR_of_all _ _ _ a1 _ h1 i,
    fun i => isR_of_all _ _ _ a2 _ h2 i,
    fun i => isR_of_all _ _ _ a3 _ h3 i,
    fun i => isR_of_all _ _ _ a4 _ h4 i,
    fun i => isR_of_all _ _ _ a5 _ h5 i,
    fun i => isR_of_all _ _ _ a6 _ h6 i,
    fun i => isR_of_all _ _ _ a7 _ h7 i,
    fun i => isR_of_all _ _ _ a8 _ h8 i,
    fun i => isR_of_all _ _ _ a9 _ h9 i,
    fun i => isR_of_all _ _ _ a10 _ h10 i,
    fun i => isR_of_all _ _ _ a11 _ h11 i,
    fun i => isR_of_all _ _ _ a12 _ h12 i,
    fun i => isR_of_all _ _ _ a13 _ h13 i,
    fun i => isR_of_all _ _ _ a14 _ h14 i,
    fun i => isR_of_all _ _ _ a15 _ h15 i,
    fun i => isR_of_all _ _ _ a16 _ h16 i⟩

end Cert.Pre_finite_inputs.Real
-- ==== Proof.lean ====
/-
  The certificate's five claims.

  The kernel computes, for each of 32 graphs, an encoder followed by two gated propagation steps, two graphs to
  a grid point, with the gates' weights concatenated on the host beforehand; the reference computes the same layer
  on the whole batch at once. The three frames: the two kernel programs run through the pipeline's launch with the
  body executed symbolically at a generic grid point, and the reference is a straight line of host operations.
  Nothing was rewritten by the ideal pass. Over the extended reals the two results are the same function of the
  arguments: the kernel blends the candidate into the state as  o + z·(h − o)  and groups the candidate's four
  summands to the left, the reference blends as  h·z + o·(1 − z)  and groups them in pairs; addition is associative,
  and the two blends agree on real numbers, which every intermediate value is once the inputs are finite.
-/
import proofs.«126110_g44787918963399_cont_sun_c4_384_8_alg».proof.Defs
import proofs.«126110_g44787918963399_cont_sun_c4_384_8_alg».proof.Proof.Gen.Kernel
import proofs.«126110_g44787918963399_cont_sun_c4_384_8_alg».proof.Proof.Gen.KernelIdeal
import proofs.«126110_g44787918963399_cont_sun_c4_384_8_alg».proof.Proof.Gen.ReferenceIdeal
import proofs.«126110_g44787918963399_cont_sun_c4_384_8_alg».proof.Proof.Gen.Pre_finite_inputs
import proofs.«126110_g44787918963399_cont_sun_c4_384_8_alg».proof.Proof.Gen.ReferenceIdeal.Run
import proofs.«126110_g44787918963399_cont_sun_c4_384_8_alg».proof.Proof.Gen.ReferenceIdeal.Read
import proofs.«126110_g44787918963399_cont_sun_c4_384_8_alg».proof.Proof.KIFrame
import proofs.«126110_g44787918963399_cont_sun_c4_384_8_alg».proof.Proof.KFrame
import proofs.«126110_g44787918963399_cont_sun_c4_384_8_alg».proof.Proof.KIRun
import proofs.«126110_g44787918963399_cont_sun_c4_384_8_alg».proof.Proof.RefValue
import proofs.«126110_g44787918963399_cont_sun_c4_384_8_alg».proof.Proof.Finite
import proofs.«126110_g44787918963399_cont_sun_c4_384_8_alg».proof.Proof.Whole
import Idealize.ShloMosaic.Lib.ValueIdx
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs to the end and leaves its arguments as they were. -/
theorem frame_k : Cert.frame_Kernel := fun m ρ _ => Cert.Kernel.Fr.frame m ρ

/-- So does the kernel read at the ideal instance. -/
theorem frame_ki : Cert.frame_KernelIdeal := fun m ρ _ => Cert.KernelIdeal.Fr.frame m ρ

/-- The reference is a line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Over the extended reals the kernel's result array is the whole-batch layer in its own spelling and the
    reference's the same layer in the other; every input is a real number, so the two agree. -/
theorem algebraic : Cert.algebraic_KernelIdeal_ReferenceIdeal := by
  intro m ρ m' ρ' hpre hagree
  refine ⟨fun c => Cert.KernelIdeal.KRun.G m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq]
  obtain ⟨e0, e1, e2, e3, e4, e5, e6, e7, e8, e9, e10, e11, e12, e13, e14, e15, e16⟩ := hagree c
  rw [e0, e1, e2, e3, e4, e5, e6, e7, e8, e9, e10, e11, e12, e13, e14, e15, e16]
  obtain ⟨r0, r1, r2, r3, r4, r5, r6, r7, r8, r9, r10, r11, r12, r13, r14, r15, r16⟩ :=
    Cert.Pre_finite_inputs.Real.real_of_fn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (hpre c)
  have hP : (Gru.params (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).IsReal :=
    ⟨fun i j => r3 _, fun j => r4 _, fun i j => r5 _, fun j => r6 _, fun i j => r7 _, fun j => r8 _, fun i j => r9 _,
      fun j => r10 _, fun i j => r11 _, fun j => r12 _, fun i j => r13 _, fun j => r14 _, fun i j => r15 _, fun j => r16 _⟩
  refine funext fun (i : Cert.ReferenceIdeal.S32x512x128.Idx) => ?_
  obtain ⟨b, r, k, rfl⟩ : ∃ (b : Fin 32) (r : Fin 512) (k : Fin 128), i = ix3 b r k := ⟨i 0, i 1, i 2, eq_ix3 i⟩
  refine (Cert.ReferenceIdeal.RefValue.ref_apply _ _ _ _ _ _ _ _ _ _ _ _ _ _ _ _ _ b r k).trans ?_
  exact (congrFun (Gru.wholeK_eq_wholeR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) _ r0 r1 r2 hP) (ix3 b r k)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
